-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S3x2048 .f32 .bf16
  ∧ IdealRules.truncf_extf.Statement Cert.KernelIdeal.S3x2048 .f32 .bf16
  ∧ IdealRules.truncf_extf.Statement Cert.KernelIdeal.S1x2048 .f32 .bf16
  ∧ IdealRules.truncf_extf.Statement Cert.KernelIdeal.S1x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S8x3x2048 : Shape := ⟨3, ![8, 3, 2048]⟩
abbrev S1x1 : Shape := ⟨2, ![1, 1]⟩
abbrev S1x3x2048 : Shape := ⟨3, ![1, 3, 2048]⟩
abbrev S3x2048 : Shape := ⟨2, ![3, 2048]⟩
abbrev S2048 : Shape := ⟨1, ![2048]⟩
abbrev S1x2048 : Shape := ⟨2, ![1, 2048]⟩
abbrev S16x2048 : Shape := ⟨2, ![16, 2048]⟩
abbrev S16x256 : Shape := ⟨2, ![16, 256]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1x2048 : Shape := ⟨3, ![1, 1, 2048]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x3x2048, .f32⟩
  | .hbm, ⟨3, _⟩ => ⟨S8x3x2048, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x3x2048, .f32⟩
  | .local _ .vmem, ⟨1, _⟩ => ⟨S1x3x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x1, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S8x2048x3_S8x3x2048_0_2_1 : S8x2048x3.Transposes [0, 2, 1] S8x3x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  bitsLt_bf16_f32 : FTy.bits .bf16 < FTy.bits .f32
  reduces_S3x2048_S2048 : S3x2048.Reduces [0] S2048
  shapeCasts_S2048_S1x2048 : S2048.ShapeCasts S1x2048
  concatenates_S3x2048_S3x2048_S3x2048_S3x2048_S1x2048_S1x2048_S1x2048_S1x2048_S16x2048_d0 : Shape.Concatenates [S3x2048, S3x2048, S3x2048, S3x2048, S1x2048, S1x2048, S1x2048, S1x2048] S16x2048 0
  slices_S16x2048_o0_0_S16x256 : S16x2048.Slices ![0, 0] S16x256
  reduces_S256x2048_S256 : S256x2048.Reduces [1] S256
  shapeCasts_S256_S256x1 : S256.ShapeCasts S256x1
  reduces_S256x2048_S2048 : S256x2048.Reduces [0] S2048
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  slices_S16x2048_o0_256_S16x256 : S16x2048.Slices ![0, 256] S16x256
  slices_S16x2048_o0_512_S16x256 : S16x2048.Slices ![0, 512] S16x256
  slices_S16x2048_o0_768_S16x256 : S16x2048.Slices ![0, 768] S16x256
  slices_S16x2048_o0_1024_S16x256 : S16x2048.Slices ![0, 1024] S16x256
  slices_S16x2048_o0_1280_S16x256 : S16x2048.Slices ![0, 1280] S16x256
  slices_S16x2048_o0_1536_S16x256 : S16x2048.Slices ![0, 1536] S16x256
  slices_S16x2048_o0_1792_S16x256 : S16x2048.Slices ![0, 1792] S16x256
  shapeCasts_S1x2048_S1x1x2048 : S1x2048.ShapeCasts S1x1x2048
  reduces_S1x1x2048_S1 : S1x1x2048.Reduces [1, 2] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S16x256_S16x2048_S256x2048_0_0_1_1_n_n_wf : DotDims.WF S16x256 S16x2048 S256x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S8x3x2048.size a
  hwx0_0 : ∀ i : grid0.Coords, EltTy.bits .f32 = 32 ∨ (Rect.block (s := S8x3x2048) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S16x256_S16x2048_S256x2048_0_0_1_1_n_n : DotDims S16x256 S16x2048 S256x2048 where
  lhsContracting := [0]
  rhsContracting := [0]
  lhsNonContracting := [1]
  rhsNonContracting := [1]
  lhsBatch := []
  rhsBatch := []
  wf := dot_S16x256_S16x2048_S256x2048_0_0_1_1_n_n_wf

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048x1x3, .f32⟩
  | .hbm, ⟨22, _⟩ => ⟨S8x1x2048x3, .f32⟩
  | .hbm, ⟨23, _⟩ => ⟨S8x2048x2048x3, .f32⟩
  | .hbm, ⟨24, _⟩ => ⟨S8x2048x2048x3, .f32⟩
  | .hbm, ⟨25, _⟩ => ⟨S8x2048x2048x3, .f32⟩
  | .hbm, ⟨26, _⟩ => ⟨S8x2048x2048x3, .f32⟩
  | .hbm, ⟨27, _⟩ => ⟨S_, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S8x2048_d2 : S8x2048x2048.ReducesTo [2] S8x2048
  reducesTo_S8x2048_S8_d1 : S8x2048.ReducesTo [1] S8
  bcast_S_S8 : S_.BroadcastsInDim S8 (![] : Fin 0 → Fin S8.rank)
  reducesTo_S8_S_d0 : S8.ReducesTo [0] S_

variable [Facts₀]

class Facts : Prop extends Facts₀ where

variable [Facts]
-- ==== Proof.Consts.lean ====
/-
  The float literals the two programs spell, as the extended reals their bit patterns denote, and the
  quotient of two finite values: dividing a real by a nonzero real is the real quotient.
-/
import Idealize.ShloMosaic.PureOps.Ideal

noncomputable section

namespace Cert.Consts

open Idealize.ShloMosaic

/-- The pattern of `+∞` denotes the top of the extended reals: the neutral element of a minimum. -/
theorem ofBits_inf : Ideal.ofBits .f32 0x7F800000#32 = ⊤ := by
  simp [Ideal.ofBits, Ideal.ieee]

/-- `+0.0` denotes `0`. -/
theorem ofBits_zero : Ideal.ofBits .f32 0x00000000#32 = 0 := by
  simp [Ideal.ofBits, Ideal.ieee]

/-- `-2.0`, the factor of the cross term. -/
theorem ofBits_neg2 : Ideal.ofBits .f32 0xC0000000#32 = ((-2 : ℝ) : EReal) := by
  simp [Ideal.ofBits, Ideal.ieee, -EReal.coe_mul, -EReal.coe_neg]; norm_num

/-- The sixteen-bit `1.0` that carries the two squared norms through the contraction. -/
theorem ofBits_one_bf16 : Ideal.ofBits .bf16 0x3F80#16 = ((1 : ℝ) : EReal) := by
  simp [Ideal.ofBits, Ideal.ieee, -EReal.coe_mul]; norm_num

/-- `2048.0`, the number of points of a cloud. -/
theorem ofBits_2048 : Ideal.ofBits .f32 0x45000000#32 = ((2048 : ℝ) : EReal) := by
  simp [Ideal.ofBits, Ideal.ieee, -EReal.coe_mul]; norm_num

/-- `8.0`, the number of clouds. -/
theorem ofBits_8 : Ideal.ofBits .f32 0x41000000#32 = ((8 : ℝ) : EReal) := by
  simp [Ideal.ofBits, Ideal.ieee, -EReal.coe_mul]; norm_num

/-- `2.0`, the two directions averaged. -/
theorem ofBits_2 : Ideal.ofBits .f32 0x40000000#32 = ((2 : ℝ) : EReal) := by
  simp [Ideal.ofBits, Ideal.ieee, -EReal.coe_mul]; norm_num

/-- `32768.0 = 2 · 8 · 2048`, the three divisors in one. -/
theorem ofBits_32768 : Ideal.ofBits .f32 0x47000000#32 = ((32768 : ℝ) : EReal) := by
  simp [Ideal.ofBits, Ideal.ieee, -EReal.coe_mul]; norm_num

/-- The quotient of a finite value by a nonzero finite value is the real quotient. -/
theorem div_coe_coe (a b : ℝ) (hb : b ≠ 0) : Ideal.div (a : EReal) (b : EReal) = ((a / b : ℝ) : EReal) := by
  rw [Ideal.div_coe hb, ← EReal.coe_mul]; congr 1; ring

end Cert.Consts

end
-- ==== Proof.Finite.lean ====
/-
  The precondition read back: two arrays of which `|x| < +∞` holds at every entry hold real values only.
-/
import proofs.«144426_g47682726920370_cont_8to1_c_550_9_alg».proof.Pre_finite_inputs
import proofs.«144426_g47682726920370_cont_8to1_c_550_9_alg».proof.Proof.Consts
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]

instance : Subsingleton S_.Idx := ⟨fun a b => funext fun d => d.elim0⟩

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [Cert.Consts.ofBits_inf] at h
  induction x using EReal.rec with
  | bot => simp [Ideal.cmp] at h
  | top => simp [Ideal.cmp] at h
  | coe r => exact ⟨r, rfl⟩

/-- Both arrays of which the precondition holds are finite at every entry. -/
theorem finite_of_pre (x0 x1 : FVec Ideal S8x2048x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [Cert.Pre_finite_inputs.fn] at h'
  obtain ⟨ha, hb⟩ := IntOp.andi_eq_one.mp h'
  constructor
  · intro i
    exact real_of_abs_lt _ (Host.reduce_andi_all _ _ _ _ _ ha i)
  · intro i
    exact real_of_abs_lt _ (Host.reduce_andi_all _ _ _ _ _ hb i)

end Cert.Finite

end
-- ==== Proof.LibERealFold.lean ====
/-
  General lemmas on finite real values inside the extended reals: a finite sum of reals, and a
  minimum over a nonempty finite family of reals taken from the top element, stay real.
-/
import Mathlib.Data.EReal.Operations
import Mathlib.Order.Fin.Basic
import Mathlib.Algebra.BigOperators.Group.Finset.Basic
import Mathlib.Order.Lattice
import Mathlib.Data.Finset.Lattice.Fold

namespace ERealFold

/-- A finite sum of real values, read in the extended reals, is the real sum. -/
theorem coe_sum {ι : Type*} (s : Finset ι) (f : ι → ℝ) :
    ∑ i ∈ s, ((f i : ℝ) : EReal) = ((∑ i ∈ s, f i : ℝ) : EReal) := by
  -- by induction on the index set: the empty sum is zero on both sides, and adding one more index
  -- adds one real summand, which the inclusion of the reals respects
  induction s using Finset.cons_induction with
  | empty => rw [Finset.sum_empty, Finset.sum_empty, EReal.coe_zero]
  | cons a s ha ih => rw [Finset.sum_cons, Finset.sum_cons, ih, EReal.coe_add]

/-- The minimum, started from the top element, of a nonempty finite family of real values is the real minimum. -/
theorem fold_min_top_coe {ι : Type*} [Fintype ι] [Nonempty ι] (f : ι → ℝ) :
    (Finset.univ : Finset ι).fold min (⊤ : EReal) (fun i => ((f i : ℝ) : EReal))
      = ((Finset.univ.inf' Finset.univ_nonempty f : ℝ) : EReal) := by
  -- folding the binary minimum from the top element is the infimum of the family in the extended reals
  have hfold : (Finset.univ : Finset ι).fold min (⊤ : EReal) (fun i => ((f i : ℝ) : EReal))
      = Finset.univ.inf (fun i => ((f i : ℝ) : EReal)) := rfl
  -- over a nonempty index set that infimum needs no top element; and the inclusion of the reals is
  -- monotone, hence commutes with binary minima and so with the minimum of a nonempty finite family
  rw [hfold, ← Finset.inf'_eq_inf Finset.univ_nonempty]
  exact (Finset.apply_inf'_eq_inf'_comp Finset.univ_nonempty (fun x : ℝ => (x : EReal))
    (fun x y => EReal.coe_strictMono.monotone.map_inf x y)).symm

end ERealFold
-- ==== Proof.ChamferMath.lean ====
/-
  The Chamfer loss over the reals, and the arithmetic that joins its two spellings.
  For two clouds `P, G` of 2048 points of ℝ³, `nearest P G i` is the squared distance from `P i` to the
  nearest point of `G`; a batch element contributes the sum of these over `P` plus the same with the
  clouds exchanged; the loss is the sum over the eight batch elements divided by `2 · 8 · 2048`.
-/
import Mathlib.Data.Real.Basic
import Mathlib.Algebra.BigOperators.Fin
import Mathlib.Algebra.BigOperators.Field
import Mathlib.Algebra.Order.BigOperators.Group.Finset
import Mathlib.Data.Finset.Lattice.Fold
import Mathlib.Tactic.Ring
import Mathlib.Tactic.FieldSimp
import Mathlib.Tactic.Linarith

noncomputable section

namespace Chamfer

/-- The squared Euclidean distance of two points of ℝ³. -/
def sqd (p g : Fin 3 → ℝ) : ℝ := ∑ k, (p k - g k) * (p k - g k)

/-- The squared distance is symmetric: each coordinate's difference only changes sign. -/
theorem sqd_comm (p g : Fin 3 → ℝ) : sqd p g = sqd g p := by
  unfold sqd
  refine Finset.sum_congr rfl (fun k _ => ?_)
  ring

/-- The squared distance from point `i` of `P` to the nearest point of `G`. -/
def nearest (P G : Fin 2048 → Fin 3 → ℝ) (i : Fin 2048) : ℝ :=
  Finset.univ.inf' Finset.univ_nonempty fun j => sqd (P i) (G j)

/-- One direction of a batch element: the nearest squared distances summed over the first cloud. -/
def rowSum (P G : Fin 2048 → Fin 3 → ℝ) : ℝ := ∑ i, nearest P G i

/-- One batch element: both directions. -/
def batch (P G : Fin 2048 → Fin 3 → ℝ) : ℝ := rowSum P G + rowSum G P

/-- The loss: the batch elements summed, divided by `2 · 8 · 2048`. -/
def loss (P G : Fin 8 → Fin 2048 → Fin 3 → ℝ) : ℝ := (∑ b, batch (P b) (G b)) / 32768

/-- The reference's spelling: each direction a mean over the points then a mean over the batch, the two halved. -/
theorem ref_eq (P G : Fin 8 → Fin 2048 → Fin 3 → ℝ) :
    ((0 + ∑ b, (0 + rowSum (P b) (G b)) / 2048) / 8 + (0 + ∑ b, (0 + rowSum (G b) (P b)) / 2048) / 8) / 2 = loss P G := by
  -- the sum of the batch elements splits into the two directions; the constant divisors come out of
  -- the sums, and 2048 · 8 · 2 = 32768
  unfold loss batch
  rw [Finset.sum_add_distrib]
  simp only [zero_add, ← Finset.sum_div]
  ring

/-- The kernel's accumulation over the eight grid points, in order, from zero. -/
theorem acc_eq (s : Fin 8 → ℝ) :
    ((((((((0 + s 0) + s 1) + s 2) + s 3) + s 4) + s 5) + s 6) + s 7) = ∑ b, s b := by
  rw [Fin.sum_univ_eight, zero_add]

/-- Row `p` of strip `r` of the 2048 rows: row `256 r + p`. -/
def sidx (r : Fin 8) (p : Fin 256) : Fin 2048 := ⟨256 * r.val + p.val, by omega⟩

/-- The 2048 rows are the eight strips of 256 rows laid end to end: the pair (strip, row within the
  strip) and the row number `256 r + p` determine each other, by quotient and remainder modulo 256. -/
private def stripEquiv : Fin 8 × Fin 256 ≃ Fin 2048 where
  toFun x := sidx x.1 x.2
  invFun i := (⟨i.val / 256, by omega⟩, ⟨i.val % 256, by omega⟩)
  left_inv x := by
    rcases x with ⟨r, p⟩
    refine Prod.ext (Fin.ext ?_) (Fin.ext ?_)
    · show (256 * r.val + p.val) / 256 = r.val
      omega
    · show (256 * r.val + p.val) % 256 = p.val
      omega
  right_inv i := by
    refine Fin.ext ?_
    show 256 * (i.val / 256) + i.val % 256 = i.val
    omega

/-- Every row lies in some strip. -/
private theorem exists_sidx (i : Fin 2048) : ∃ (r : Fin 8) (p : Fin 256), i = sidx r p :=
  ⟨(stripEquiv.symm i).1, (stripEquiv.symm i).2, (stripEquiv.apply_symm_apply i).symm⟩

/-- A sum over all rows is the sum over the strips of the sums within each strip. -/
private theorem sum_strips (f : Fin 2048 → ℝ) :
    ∑ i, f i = ∑ r : Fin 8, ∑ p : Fin 256, f (sidx r p) := by
  rw [← Equiv.sum_comp stripEquiv f, Fintype.sum_prod_type]
  rfl

/-- Eight strips of 256 rows, each summed, then added in order, are the sum over all 2048 rows. -/
theorem strips_sum (f : Fin 2048 → ℝ) :
    (((((((∑ p, f (sidx 0 p)) + ∑ p, f (sidx 1 p)) + ∑ p, f (sidx 2 p)) + ∑ p, f (sidx 3 p)) + ∑ p, f (sidx 4 p))
      + ∑ p, f (sidx 5 p)) + ∑ p, f (sidx 6 p)) + ∑ p, f (sidx 7 p) = ∑ i, f i := by
  rw [sum_strips, Fin.sum_univ_eight]

/-- Eight values combined by `min` in order lie below each one of them. -/
private theorem min8_le (g : Fin 8 → ℝ) (r : Fin 8) :
    min (min (min (min (min (min (min (g 0) (g 1)) (g 2)) (g 3)) (g 4)) (g 5)) (g 6)) (g 7) ≤ g r := by
  have h8 : ∀ r : Fin 8, r = 0 ∨ r = 1 ∨ r = 2 ∨ r = 3 ∨ r = 4 ∨ r = 5 ∨ r = 6 ∨ r = 7 := by decide
  rcases h8 r with rfl | rfl | rfl | rfl | rfl | rfl | rfl | rfl <;>
    simp only [min_le_iff, le_refl, true_or, or_true]

/-- The minimum over each strip of 256 rows, the eight combined in order, is the minimum over all 2048 rows. -/
theorem strips_inf (f : Fin 2048 → ℝ) :
    min (min (min (min (min (min (min
      (Finset.univ.inf' Finset.univ_nonempty fun p => f (sidx 0 p))
      (Finset.univ.inf' Finset.univ_nonempty fun p => f (sidx 1 p)))
      (Finset.univ.inf' Finset.univ_nonempty fun p => f (sidx 2 p)))
      (Finset.univ.inf' Finset.univ_nonempty fun p => f (sidx 3 p)))
      (Finset.univ.inf' Finset.univ_nonempty fun p => f (sidx 4 p)))
      (Finset.univ.inf' Finset.univ_nonempty fun p => f (sidx 5 p)))
      (Finset.univ.inf' Finset.univ_nonempty fun p => f (sidx 6 p)))
      (Finset.univ.inf' Finset.univ_nonempty fun p => f (sidx 7 p))
      = Finset.univ.inf' Finset.univ_nonempty f := by
  apply le_antisymm
  · -- the combined strip minima lie below every row's value, since the row is in some strip
    refine Finset.le_inf' _ _ (fun i _ => ?_)
    obtain ⟨r, p, rfl⟩ := exists_sidx i
    refine le_trans
      (min8_le (fun r => Finset.univ.inf' Finset.univ_nonempty fun p => f (sidx r p)) r) ?_
    exact Finset.inf'_le _ (Finset.mem_univ p)
  · -- the overall minimum lies below each strip's minimum, hence below their combination
    have hstrip : ∀ r : Fin 8, Finset.univ.inf' Finset.univ_nonempty f
        ≤ Finset.univ.inf' Finset.univ_nonempty fun p => f (sidx r p) :=
      fun r => Finset.le_inf' _ _ (fun p _ => Finset.inf'_le _ (Finset.mem_univ (sidx r p)))
    exact le_min (le_min (le_min (le_min (le_min (le_min (le_min (hstrip 0) (hstrip 1)) (hstrip 2))
      (hstrip 3)) (hstrip 4)) (hstrip 5)) (hstrip 6)) (hstrip 7)

end Chamfer

end
-- ==== Proof.Spec.lean ====
/-
  The value both programs end with: the Chamfer loss of the two argument arrays' real values.
-/
import proofs.«144426_g47682726920370_cont_8to1_c_550_9_alg».proof.Proof.ChamferMath
import Idealize.ShloMosaic.Lib.ValueIdx
import Mathlib.Data.EReal.Basic

noncomputable section

namespace Chamfer

open Idealize.ShloMosaic Idealize.ShloMosaic.ValueIdx

/-- The real values of an `[8, 2048, 3]` array of extended reals, by batch element, point and coordinate. -/
def realOf (x : (⟨3, ![8, 2048, 3]⟩ : Shape).Idx → EReal) : Fin 8 → Fin 2048 → Fin 3 → ℝ :=
  fun b i k => (x (ix3 b i k)).toReal

/-- The loss of the two arrays, as an extended real. -/
def spec (x0 x1 : (⟨3, ![8, 2048, 3]⟩ : Shape).Idx → EReal) : EReal :=
  ((loss (realOf x0) (realOf x1) : ℝ) : EReal)

/-- A finite entry is its real value. -/
theorem coe_realOf (x : (⟨3, ![8, 2048, 3]⟩ : Shape).Idx → EReal) (h : ∀ i, ∃ r : ℝ, x i = (r : EReal))
    (b : Fin 8) (i : Fin 2048) (k : Fin 3) : x (ix3 b i k) = ((realOf x b i k : ℝ) : EReal) := by
  obtain ⟨r, hr⟩ := h (ix3 b i k)
  unfold realOf
  rw [hr, EReal.toReal_coe]

end Chamfer

end
-- ==== Proof.RefValue.lean ====
/-
  The reference's result, over finite inputs, is the Chamfer loss of their real values: each
  direction's pairwise squared distances, the minimum over the other cloud, the mean over the points,
  the mean over the batch, and the two directions halved.
-/
import proofs.«144426_g47682726920370_cont_8to1_c_550_9_alg».proof.Proof.Gen.ReferenceIdeal.Run
import proofs.«144426_g47682726920370_cont_8to1_c_550_9_alg».proof.Proof.Gen.ReferenceIdeal.Read
import proofs.«144426_g47682726920370_cont_8to1_c_550_9_alg».proof.Proof.Consts
import proofs.«144426_g47682726920370_cont_8to1_c_550_9_alg».proof.Proof.LibERealFold
import proofs.«144426_g47682726920370_cont_8to1_c_550_9_alg».proof.Proof.Spec
import Idealize.ShloMosaic.Lib.ValueIdx
import Idealize.ShloMosaic.PureOps.Ideal.Laws
import Idealize.ShloMosaic.Lib.ValueIdxRank1
import Idealize.ShloMosaic.PureOps.Reduce

noncomputable section

namespace Cert.ReferenceIdeal.RefValue

open Cert.ReferenceIdeal Cert.ReferenceIdeal.Gen Idealize.ShloMosaic Idealize.ShloMosaic.ValueIdx

/-! ## First direction: the first array's points against the second's -/

/-- One coordinate's squared difference, at batch element `b`, points `i` and `j`, coordinate `k`. -/
theorem v5_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i j : Fin 2048) (k : Fin 3) :
    Read.val_main_v5 (F := Ideal) x0 x1 (ix4 b i j k)
      = (((Chamfer.realOf x0 b i k - Chamfer.realOf x1 b j k) * (Chamfer.realOf x0 b i k - Chamfer.realOf x1 b j k) : ℝ) : EReal) := by
  have e0 : Read.val_main_v2 (F := Ideal) x0 (ix4 b i j k) = ((Chamfer.realOf x0 b i k : ℝ) : EReal) := by
    rw [Read.val_main_v2_apply, Read.val_main_v0_apply, ← Chamfer.coe_realOf x0 h0 b i k]
    exact congrArg x0 (funext fun a => Fin.ext (by match a with | ⟨0, _⟩ => rfl | ⟨1, _⟩ => rfl | ⟨2, _⟩ => rfl))
  have e1 : Read.val_main_v3 (F := Ideal) x1 (ix4 b i j k) = ((Chamfer.realOf x1 b j k : ℝ) : EReal) := by
    rw [Read.val_main_v3_apply, Read.val_main_v1_apply, ← Chamfer.coe_realOf x1 h1 b j k]
    exact congrArg x1 (funext fun a => Fin.ext (by match a with | ⟨0, _⟩ => rfl | ⟨1, _⟩ => rfl | ⟨2, _⟩ => rfl))
  rw [Read.val_main_v5_apply, Read.val_main_v4_apply, e0, e1, Ideal.subf_def, Ideal.mulf_def,
    ← EReal.coe_sub, ← EReal.coe_mul]

/-- The squared distance between point `i` of the first cloud and point `j` of the second. -/
theorem v6_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i j : Fin 2048) :
    Read.val_main_v6 (F := Ideal) x0 x1 (ix3 b i j)
      = ((Chamfer.sqd (Chamfer.realOf x0 b i) (Chamfer.realOf x1 b j) : ℝ) : EReal) := by
  rw [Read.val_main_v6_apply, Read.val_main_cst_apply, Ideal.ofBits_def, Cert.Consts.ofBits_zero, zero_add]
  have hk : ∀ k : Fin 3, Read.val_main_v5 (F := Ideal) x0 x1 (Read.idx_main_v6 (ix3 b i j) k)
      = (((Chamfer.realOf x0 b i k - Chamfer.realOf x1 b j k) * (Chamfer.realOf x0 b i k - Chamfer.realOf x1 b j k) : ℝ) : EReal) := by
    intro k
    rw [← v5_entry x0 x1 h0 h1 b i j k]
    exact congrArg (Read.val_main_v5 (F := Ideal) x0 x1)
      (funext fun a => Fin.ext (by match a with | ⟨0, _⟩ => rfl | ⟨1, _⟩ => rfl | ⟨2, _⟩ => rfl | ⟨3, _⟩ => rfl))
  rw [Finset.sum_congr rfl fun k _ => hk k, ERealFold.coe_sum]
  rfl

/-- Putting coordinate `k` back on the last axis of a `[8, 2048]` index gives the `[8, 2048, 2048]` index. -/
theorem lift_ix3 (h : S8x2048x2048.Reduces [2] S8x2048) (b : Fin 8) (i : Fin 2048) (k : Fin (S8x2048x2048.size 2)) :
    h.lift (ix2 b i) k = ix3 b i (⟨k.val, k.isLt⟩ : Fin 2048) := by
  funext c; apply Fin.ext
  match c with | ⟨0, _⟩ => rfl | ⟨1, _⟩ => rfl | ⟨2, _⟩ => rfl

/-- The minimum over the second cloud: the squared distance from point `i` to its nearest point there. -/
theorem v7_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i : Fin 2048) :
    Read.val_main_v7 (F := Ideal) x0 x1 (ix2 b i)
      = ((Chamfer.nearest (Chamfer.realOf x0 b) (Chamfer.realOf x1 b) i : ℝ) : EReal) := by
  have h : S8x2048x2048.Reduces [2] S8x2048 := by decide
  unfold Read.val_main_v7
  rw [Host.reduce_eq_fold_single FloatOps.minimumf _ _ Facts₀.reducesTo_S8x2048x2048_S8x2048_d2 h Facts₀.h_S_ (ix2 b i)]
  rw [Read.val_main_cst_0_apply, Ideal.ofBits_def, Cert.Consts.ofBits_inf]
  have hf : (Read.val_main_v6 (F := Ideal) x0 x1 ∘ h.lift (ix2 b i))
      = fun j : Fin 2048 => ((Chamfer.sqd (Chamfer.realOf x0 b i) (Chamfer.realOf x1 b j) : ℝ) : EReal) := by
    funext k
    show Read.val_main_v6 (F := Ideal) x0 x1 (h.lift (ix2 b i) k) = _
    rw [lift_ix3 h b i k]
    exact v6_entry x0 x1 h0 h1 b i _
  rw [hf]
  exact ERealFold.fold_min_top_coe fun j : Fin 2048 => Chamfer.sqd (Chamfer.realOf x0 b i) (Chamfer.realOf x1 b j)

/-- The nearest squared distances summed over the first cloud. -/
theorem v8_entry (x0 x1 : (⟨S8x2048x3, .f32⟩ : BufTy).Contents (Elt Ideal))
    (h0 : ∀ i, ∃ r : ℝ, x0 i = (r : EReal)) (h1 : ∀ i, ∃ r : ℝ, x1 i = (r : EReal)) (b : Fin 8) :
    Read.val_main_v8 (F := Ideal) x0 x1 (ix1 b)
      = ((Chamfer.rowSum (Chamfer.realOf x0 b) (Chamfer.realOf x1 b) : ℝ) : EReal) := by
  rw [Read.val_main_v8_apply, Read.val_main_cst_1_apply, Ideal.ofBits_def, Cert.Consts.ofBits_zero, zero_add]
  have hk : ∀ k : Fin 2048, Read.val_main_v7 (F := Ideal) x0 x1 (Read.idx_main_v8 (ix1 b) k)
      = ((Chamfer.nearest (Chamfer.realOf x0 b) (Chamfer.realOf x1 b) k : ℝ) : EReal) := by
    intro k
    rw [← v7_entry x0 x1 h0 h1 b k]
    exact congrArg (Read.val_main_v7 (F := Ideal) x0 x1)
      (funext fun a => Fin.ext (by match a with | ⟨0, _⟩ => rfl | ⟨1, _⟩ => rfl))
  rw [Finset.sum_congr rfl fun k _ => hk k, ERealFold.coe_sum]
  rfl

/-- The divisor of the mean over the points, at every batch element. -/
theorem v9_entry (i : S8.Idx) : Read.val_main_v9 (F := Ideal) i = ((2048 : ℝ) : EReal) := by
  rw [Read.val_main_v9_apply, Read.val_main_cst_2_apply, Ideal.ofBits_def, Cert.Consts.ofBits_2048]

/-- The mean over the first cloud's points. -/
theorem v10_entry (x0 x1 : (⟨S8x2048x3, .f32⟩ : BufTy).Contents (Elt Ideal))
    (h0 : ∀ i, ∃ r : ℝ, x0 i = (r : EReal)) (h1 : ∀ i, ∃ r : ℝ, x1 i = (r : EReal)) (b : Fin 8) :
    Read.val_main_v10 (F := Ideal) x0 x1 (ix1 b)
      = ((Chamfer.rowSum (Chamfer.realOf x0 b) (Chamfer.realOf x1 b) / 2048 : ℝ) : EReal) := by
  rw [Read.val_main_v10_apply, Ideal.hostDivf_def, v8_entry x0 x1 h0 h1 b, v9_entry,
    Cert.Consts.div_coe_coe _ _ (by norm_num)]

/-- The means summed over the eight batch elements. -/
theorem v11_entry (x0 x1 : (⟨S8x2048x3, .f32⟩ : BufTy).Contents (Elt Ideal))
    (h0 : ∀ i, ∃ r : ℝ, x0 i = (r : EReal)) (h1 : ∀ i, ∃ r : ℝ, x1 i = (r : EReal)) (i : S_.Idx) :
    Read.val_main_v11 (F := Ideal) x0 x1 i
      = ((∑ b : Fin 8, Chamfer.rowSum (Chamfer.realOf x0 b) (Chamfer.realOf x1 b) / 2048 : ℝ) : EReal) := by
  rw [Read.val_main_v11_apply, Read.val_main_cst_3_apply, Ideal.ofBits_def, Cert.Consts.ofBits_zero, zero_add,
    ← Equiv.sum_comp (idxEquiv1 (n := 8)).symm (Read.val_main_v10 (F := Ideal) x0 x1)]
  have hb : ∀ b : Fin 8, Read.val_main_v10 (F := Ideal) x0 x1 ((idxEquiv1 (n := 8)).symm b)
      = ((Chamfer.rowSum (Chamfer.realOf x0 b) (Chamfer.realOf x1 b) / 2048 : ℝ) : EReal) :=
    fun b => v10_entry x0 x1 h0 h1 b
  rw [Finset.sum_congr rfl fun b _ => hb b, ERealFold.coe_sum]

/-- The mean over the batch of the first direction. -/
theorem v12_entry (x0 x1 : (⟨S8x2048x3, .f32⟩ : BufTy).Contents (Elt Ideal))
    (h0 : ∀ i, ∃ r : ℝ, x0 i = (r : EReal)) (h1 : ∀ i, ∃ r : ℝ, x1 i = (r : EReal)) (i : S_.Idx) :
    Read.val_main_v12 (F := Ideal) x0 x1 i
      = (((∑ b : Fin 8, Chamfer.rowSum (Chamfer.realOf x0 b) (Chamfer.realOf x1 b) / 2048) / 8 : ℝ) : EReal) := by
  rw [Read.val_main_v12_apply, Ideal.hostDivf_def, v11_entry x0 x1 h0 h1 i, Read.val_main_cst_4_apply,
    Ideal.ofBits_def, Cert.Consts.ofBits_8, Cert.Consts.div_coe_coe _ _ (by norm_num)]

/-! ## Second direction: the same stages with the two arrays exchanged -/

/-- One coordinate's squared difference, the second array's point `i` against the first's point `j`. -/
theorem v18_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i j : Fin 2048) (k : Fin 3) :
    Read.val_main_v18 (F := Ideal) x0 x1 (ix4 b i j k)
      = (((Chamfer.realOf x1 b i k - Chamfer.realOf x0 b j k) * (Chamfer.realOf x1 b i k - Chamfer.realOf x0 b j k) : ℝ) : EReal) := by
  have e1 : Read.val_main_v15 (F := Ideal) x1 (ix4 b i j k) = ((Chamfer.realOf x1 b i k : ℝ) : EReal) := by
    rw [Read.val_main_v15_apply, Read.val_main_v13_apply, ← Chamfer.coe_realOf x1 h1 b i k]
    exact congrArg x1 (funext fun a => Fin.ext (by match a with | ⟨0, _⟩ => rfl | ⟨1, _⟩ => rfl | ⟨2, _⟩ => rfl))
  have e0 : Read.val_main_v16 (F := Ideal) x0 (ix4 b i j k) = ((Chamfer.realOf x0 b j k : ℝ) : EReal) := by
    rw [Read.val_main_v16_apply, Read.val_main_v14_apply, ← Chamfer.coe_realOf x0 h0 b j k]
    exact congrArg x0 (funext fun a => Fin.ext (by match a with | ⟨0, _⟩ => rfl | ⟨1, _⟩ => rfl | ⟨2, _⟩ => rfl))
  rw [Read.val_main_v18_apply, Read.val_main_v17_apply, e1, e0, Ideal.subf_def, Ideal.mulf_def,
    ← EReal.coe_sub, ← EReal.coe_mul]

/-- The squared distance between point `i` of the second cloud and point `j` of the first. -/
theorem v19_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i j : Fin 2048) :
    Read.val_main_v19 (F := Ideal) x0 x1 (ix3 b i j)
      = ((Chamfer.sqd (Chamfer.realOf x1 b i) (Chamfer.realOf x0 b j) : ℝ) : EReal) := by
  rw [Read.val_main_v19_apply, Read.val_main_cst_5_apply, Ideal.ofBits_def, Cert.Consts.ofBits_zero, zero_add]
  have hk : ∀ k : Fin 3, Read.val_main_v18 (F := Ideal) x0 x1 (Read.idx_main_v19 (ix3 b i j) k)
      = (((Chamfer.realOf x1 b i k - Chamfer.realOf x0 b j k) * (Chamfer.realOf x1 b i k - Chamfer.realOf x0 b j k) : ℝ) : EReal) := by
    intro k
    rw [← v18_entry x0 x1 h0 h1 b i j k]
    exact congrArg (Read.val_main_v18 (F := Ideal) x0 x1)
      (funext fun a => Fin.ext (by match a with | ⟨0, _⟩ => rfl | ⟨1, _⟩ => rfl | ⟨2, _⟩ => rfl | ⟨3, _⟩ => rfl))
  rw [Finset.sum_congr rfl fun k _ => hk k, ERealFold.coe_sum]
  rfl

/-- The minimum over the first cloud: the squared distance from the second cloud's point `i` to its nearest point there. -/
theorem v20_entry (x0 x1 : (⟨S8x2048x3, .f32⟩ : BufTy).Contents (Elt Ideal))
    (h0 : ∀ i, ∃ r : ℝ, x0 i = (r : EReal)) (h1 : ∀ i, ∃ r : ℝ, x1 i = (r : EReal))
    (b : Fin 8) (i : Fin 2048) :
    Read.val_main_v20 (F := Ideal) x0 x1 (ix2 b i)
      = ((Chamfer.nearest (Chamfer.realOf x1 b) (Chamfer.realOf x0 b) i : ℝ) : EReal) := by
  have h : S8x2048x2048.Reduces [2] S8x2048 := by decide
  unfold Read.val_main_v20
  rw [Host.reduce_eq_fold_single FloatOps.minimumf _ _ Facts₀.reducesTo_S8x2048x2048_S8x2048_d2 h Facts₀.h_S_ (ix2 b i)]
  rw [Read.val_main_cst_6_apply, Ideal.ofBits_def, Cert.Consts.ofBits_inf]
  have hf : (Read.val_main_v19 (F := Ideal) x0 x1 ∘ h.lift (ix2 b i))
      = fun j : Fin 2048 => ((Chamfer.sqd (Chamfer.realOf x1 b i) (Chamfer.realOf x0 b j) : ℝ) : EReal) := by
    funext k
    show Read.val_main_v19 (F := Ideal) x0 x1 (h.lift (ix2 b i) k) = _
    rw [lift_ix3 h b i k]
    exact v19_entry x0 x1 h0 h1 b i _
  rw [hf]
  exact ERealFold.fold_min_top_coe fun j : Fin 2048 => Chamfer.sqd (Chamfer.realOf x1 b i) (Chamfer.realOf x0 b j)

/-- The nearest squared distances summed over the second cloud. -/
theorem v21_entry (x0 x1 : (⟨S8x2048x3, .f32⟩ : BufTy).Contents (Elt Ideal))
    (h0 : ∀ i, ∃ r : ℝ, x0 i = (r : EReal)) (h1 : ∀ i, ∃ r : ℝ, x1 i = (r : EReal)) (b : Fin 8) :
    Read.val_main_v21 (F := Ideal) x0 x1 (ix1 b)
      = ((Chamfer.rowSum (Chamfer.realOf x1 b) (Chamfer.realOf x0 b) : ℝ) : EReal) := by
  rw [Read.val_main_v21_apply, Read.val_main_cst_7_apply, Ideal.ofBits_def, Cert.Consts.ofBits_zero, zero_add]
  have hk : ∀ k : Fin 2048, Read.val_main_v20 (F := Ideal) x0 x1 (Read.idx_main_v21 (ix1 b) k)
      = ((Chamfer.nearest (Chamfer.realOf x1 b) (Chamfer.realOf x0 b) k : ℝ) : EReal) := by
    intro k
    rw [← v20_entry x0 x1 h0 h1 b k]
    exact congrArg (Read.val_main_v20 (F := Ideal) x0 x1)
      (funext fun a => Fin.ext (by match a with | ⟨0, _⟩ => rfl | ⟨1, _⟩ => rfl))
  rw [Finset.sum_congr rfl fun k _ => hk k, ERealFold.coe_sum]
  rfl

/-- The divisor of the mean over the points, at every batch element. -/
theorem v22_entry (i : S8.Idx) : Read.val_main_v22 (F := Ideal) i = ((2048 : ℝ) : EReal) := by
  rw [Read.val_main_v22_apply, Read.val_main_cst_8_apply, Ideal.ofBits_def, Cert.Consts.ofBits_2048]

/-- The mean over the second cloud's points. -/
theorem v23_entry (x0 x1 : (⟨S8x2048x3, .f32⟩ : BufTy).Contents (Elt Ideal))
    (h0 : ∀ i, ∃ r : ℝ, x0 i = (r : EReal)) (h1 : ∀ i, ∃ r : ℝ, x1 i = (r : EReal)) (b : Fin 8) :
    Read.val_main_v23 (F := Ideal) x0 x1 (ix1 b)
      = ((Chamfer.rowSum (Chamfer.realOf x1 b) (Chamfer.realOf x0 b) / 2048 : ℝ) : EReal) := by
  rw [Read.val_main_v23_apply, Ideal.hostDivf_def, v21_entry x0 x1 h0 h1 b, v22_entry,
    Cert.Consts.div_coe_coe _ _ (by norm_num)]

/-- The means summed over the eight batch elements. -/
theorem v24_entry (x0 x1 : (⟨S8x2048x3, .f32⟩ : BufTy).Contents (Elt Ideal))
    (h0 : ∀ i, ∃ r : ℝ, x0 i = (r : EReal)) (h1 : ∀ i, ∃ r : ℝ, x1 i = (r : EReal)) (i : S_.Idx) :
    Read.val_main_v24 (F := Ideal) x0 x1 i
      = ((∑ b : Fin 8, Chamfer.rowSum (Chamfer.realOf x1 b) (Chamfer.realOf x0 b) / 2048 : ℝ) : EReal) := by
  rw [Read.val_main_v24_apply, Read.val_main_cst_9_apply, Ideal.ofBits_def, Cert.Consts.ofBits_zero, zero_add,
    ← Equiv.sum_comp (idxEquiv1 (n := 8)).symm (Read.val_main_v23 (F := Ideal) x0 x1)]
  have hb : ∀ b : Fin 8, Read.val_main_v23 (F := Ideal) x0 x1 ((idxEquiv1 (n := 8)).symm b)
      = ((Chamfer.rowSum (Chamfer.realOf x1 b) (Chamfer.realOf x0 b) / 2048 : ℝ) : EReal) :=
    fun b => v23_entry x0 x1 h0 h1 b
  rw [Finset.sum_congr rfl fun b _ => hb b, ERealFold.coe_sum]

/-- The mean over the batch of the second direction. -/
theorem v25_entry (x0 x1 : (⟨S8x2048x3, .f32⟩ : BufTy).Contents (Elt Ideal))
    (h0 : ∀ i, ∃ r : ℝ, x0 i = (r : EReal)) (h1 : ∀ i, ∃ r : ℝ, x1 i = (r : EReal)) (i : S_.Idx) :
    Read.val_main_v25 (F := Ideal) x0 x1 i
      = (((∑ b : Fin 8, Chamfer.rowSum (Chamfer.realOf x1 b) (Chamfer.realOf x0 b) / 2048) / 8 : ℝ) : EReal) := by
  rw [Read.val_main_v25_apply, Ideal.hostDivf_def, v24_entry x0 x1 h0 h1 i, Read.val_main_cst_10_apply,
    Ideal.ofBits_def, Cert.Consts.ofBits_8, Cert.Consts.div_coe_coe _ _ (by norm_num)]

/-! ## The two directions halved -/

/-- The reference's last stage, at finite inputs, is the loss at every (the one) index. -/
theorem result_eq (x0 x1 : (⟨S8x2048x3, .f32⟩ : BufTy).Contents (Elt Ideal))
    (h0 : ∀ i, ∃ r : ℝ, x0 i = (r : EReal)) (h1 : ∀ i, ∃ r : ℝ, x1 i = (r : EReal)) :
    Cert.ReferenceIdeal.Read.val_main_v27 (F := Ideal) x0 x1 = fun _ => Chamfer.spec x0 x1 := by
  funext i
  have hr := Chamfer.ref_eq (Chamfer.realOf x0) (Chamfer.realOf x1)
  simp only [zero_add] at hr
  rw [Read.val_main_v27_apply, Ideal.hostDivf_def, Read.val_main_v26_apply, Ideal.addf_def,
    v12_entry x0 x1 h0 h1 i, v25_entry x0 x1 h0 h1 i, ← EReal.coe_add, Read.val_main_cst_11_apply,
    Ideal.ofBits_def, Cert.Consts.ofBits_2, Cert.Consts.div_coe_coe _ _ (by norm_num), hr]
  rfl

end Cert.ReferenceIdeal.RefValue

end
-- ==== Proof.BodyTerms.lean ====
/-
  What one grid point adds to the running total, as one term of the two input blocks, at any float
  instance: the body's payloads composed in the order the body computes them. `strip` is one
  256-row strip of the distance matrix as the body forms it: the contraction, over the sixteen
  augmented rows, of 256 columns of the first operand with all 2048 columns of the second.
-/
import proofs.«144426_g47682726920370_cont_8to1_c_550_9_alg».proof.Proof.Gen.KernelIdeal.Skeleton

noncomputable section

namespace Cert.KernelIdeal.Body

open Cert.KernelIdeal Cert.KernelIdeal.Gen Idealize.ShloMosaic

variable {F : FTy → Type} [FloatOps F]

/-- Rows `o … o + 255` of the distance matrix: columns `o … o + 255` of `a` against every column of `b`,
    contracted over the sixteen augmented rows, from zero. -/
def strip (o : Nat) (h : S16x2048.Slices ![0, o] S16x256) (a b : FVec F S16x2048 .bf16) : FVec F S256x2048 .f32 :=
  matmul dot_S16x256_S16x2048_S256x2048_0_0_1_1_n_n none (extractStridedSlice S16x256 ![0, o] a h) b
    (constant S256x2048 .f32 0x00000000#32)

/-- The sum over the eight strips of the row minima: the first direction of the batch element. -/
def rowPart (x0 x1 : Vec F S1x3x2048 .f32) : FVec F S1x1 .f32 :=
  k0_pay20 (k0_pay4 x0) (k0_pay5 x1)
    (k0_pay12 (k0_pay4 x0) (k0_pay5 x1) (k0_pay8 x0 x1) (k0_pay9 x0 x1)) (k0_pay16 (k0_pay4 x0) (k0_pay5 x1))

/-- The sum over the columns of the column minima across the eight strips: the second direction. -/
def colPart (x0 x1 : Vec F S1x3x2048 .f32) : FVec F S1x1x1 .f32 :=
  k0_pay21 (k0_pay4 x0) (k0_pay5 x1)
    (k0_pay13 (k0_pay4 x0) (k0_pay5 x1) (k0_pay7 x0 x1) (k0_pay9 x0 x1)) (k0_pay15 (k0_pay4 x0) (k0_pay5 x1))

/-- What the body stores into the one-element output block: the block's previous contents `prev` plus
    both directions of this grid point's batch element. -/
def total (x0 x1 : Vec F S1x3x2048 .f32) (prev : Vec F S1x1 .f32) : FVec F S1x1 .f32 :=
  k0_pay2 (rowPart x0 x1) (colPart x0 x1) prev

end Cert.KernelIdeal.Body

end
-- ==== Proof.Pieces.lean ====
/-
  What each case of the body leaves in the one-element output block, read back as a value: at the
  first grid point the block is reset to zero and the point's total added to it; at every later
  point the total is added to what the point before left.
-/
import proofs.«144426_g47682726920370_cont_8to1_c_550_9_alg».proof.Proof.BodyTerms
import proofs.«144426_g47682726920370_cont_8to1_c_550_9_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later grid point: the block holding `xo` ends holding the point's total over `xo`. -/
theorem out_B (c : Dev nD) (i : grid0.Coords) (a1 : Memref sig .tc .vmem S1x3x2048 .f32) (h1 : a1.IsWhole)
    (a2 : Memref sig .tc .vmem S1x3x2048 .f32) (h2 : a2.IsWhole) (a3 : Memref sig .tc .vmem S1x1 .f32) (h3 : a3.IsWhole)
    (hc : ¬cond0_0 i) (x0 x1 : Vec F S1x3x2048 .f32) (xo : Vec F S1x1 .f32) :
    out0_B_2 c i a1 h1 a2 h2 a3 h3 hc x0 x1 xo = Body.total x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  unfold Body.total Body.rowPart Body.colPart
  simp only [View.readAt_eq_ld, h1.read_unread, h2.read_unread, h3.read_unread, View.ld_unit_zero (S := S1x3x2048) hz3,
    View.ld_unit_zero (S := S1x1) hz2]

/-- The first grid point: the block is reset to zero, read back, and ends holding the point's total over zero. -/
theorem out_A (c : Dev nD) (i : grid0.Coords) (a1 : Memref sig .tc .vmem S1x3x2048 .f32) (h1 : a1.IsWhole)
    (a2 : Memref sig .tc .vmem S1x3x2048 .f32) (h2 : a2.IsWhole) (a3 : Memref sig .tc .vmem S1x1 .f32) (h3 : a3.IsWhole)
    (hc : cond0_0 i) (x0 x1 : Vec F S1x3x2048 .f32) :
    out0_A_2 c i a1 h1 a2 h2 a3 h3 hc x0 x1 = Body.total x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  unfold Body.total Body.rowPart Body.colPart
  simp only [View.readAt_eq_ld, h1.read_unread, h2.read_unread, View.ld_unit_zero (S := S1x3x2048) hz3,
    View.ld_unit_zero (S := S1x1) hz2]

end Cert.KernelIdeal.Pieces

end
-- ==== Proof.DistMatrix.lean ====
/-
  One strip of the distance matrix, read at an entry, over finite inputs.
  The first operand's sixteen rows are, for a point `a` of the first cloud: `-2a` (three rows), `-2a - (-2a)`
  (three rows), the same six again, `1`, `1`, `|a|²`, `|a|² - |a|²`; the second operand's, for a point `b` of the
  second cloud: `b`, `b`, `b - b`, `b - b` (three rows each), `|b|²`, `|b|² - |b|²`, `1`, `1`. Over finite
  values every difference of a value with itself is zero, so the sixteen products sum to
  `-2 a·b + |b|² + |a|² = |a - b|²`.
-/
import proofs.«144426_g47682726920370_cont_8to1_c_550_9_alg».proof.Proof.BodyTerms
import proofs.«144426_g47682726920370_cont_8to1_c_550_9_alg».proof.Proof.Consts
import proofs.«144426_g47682726920370_cont_8to1_c_550_9_alg».proof.Proof.LibERealFold
import proofs.«144426_g47682726920370_cont_8to1_c_550_9_alg».proof.Proof.ChamferMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dist

open Cert.KernelIdeal Cert.KernelIdeal.Gen Idealize.ShloMosaic Idealize.ShloMosaic.ValueIdx

/-! ## The contraction read at an entry -/

/-- A column of a strip lies inside the 2048 columns. -/
theorem col_lt (o : Nat) (h : S16x2048.Slices ![0, o] S16x256) (p : Fin 256) : o + p.val < 2048 := by
  have h1 : o + 256 ≤ 2048 := h.2 1
  have := p.isLt
  omega

/-- Entry `(p, q)` of a strip is the sum, over the sixteen rows `k`, of the first operand at `(k, o + p)` times the
    second at `(k, q)`: the contraction runs over axis 0 of both operands, from a zero accumulator. -/
theorem strip_apply (o : Nat) (h : S16x2048.Slices ![0, o] S16x256) (a b : FVec Ideal S16x2048 .bf16)
    (p : Fin 256) (q : Fin 2048) :
    Body.strip o h a b (ix2 p q)
      = ∑ k : Fin 16, a (ix2 k ⟨o + p.val, col_lt o h p⟩) * b (ix2 k q) := by
  unfold Body.strip
  refine (Ideal.matmul_constant_zero_apply dot_S16x256_S16x2048_S256x2048_0_0_1_1_n_n none _ _ _).trans ?_
  rw [← Equiv.sum_comp (contrEquiv1 dot_S16x256_S16x2048_S256x2048_0_0_1_1_n_n 16 rfl rfl).symm]
  refine Finset.sum_congr rfl fun c _ => ?_
  have c2 := contrEquiv1_symm_val dot_S16x256_S16x2048_S256x2048_0_0_1_1_n_n 16 rfl rfl c
  have l2 : dot_S16x256_S16x2048_S256x2048_0_0_1_1_n_n.lhsIdx (ix2 p q)
      ((contrEquiv1 dot_S16x256_S16x2048_S256x2048_0_0_1_1_n_n 16 rfl rfl).symm c) = ix2 c p := by
    funext ax; apply Fin.ext
    match ax with
    | ⟨0, _⟩ => simp [DotDims.lhsIdx, dot_S16x256_S16x2048_S256x2048_0_0_1_1_n_n]; exact c2
    | ⟨1, _⟩ => simp [DotDims.lhsIdx, dot_S16x256_S16x2048_S256x2048_0_0_1_1_n_n]; rfl
  have r2 : dot_S16x256_S16x2048_S256x2048_0_0_1_1_n_n.rhsIdx (ix2 p q)
      ((contrEquiv1 dot_S16x256_S16x2048_S256x2048_0_0_1_1_n_n 16 rfl rfl).symm c) = ix2 c q := by
    funext ax; apply Fin.ext
    match ax with
    | ⟨0, _⟩ => simp [DotDims.rhsIdx, dot_S16x256_S16x2048_S256x2048_0_0_1_1_n_n]; exact c2
    | ⟨1, _⟩ => simp [DotDims.rhsIdx, dot_S16x256_S16x2048_S256x2048_0_0_1_1_n_n]; rfl
  rw [l2, r2]
  congr 1
  unfold extractStridedSlice
  congr 1
  funext ax
  match ax with
  | ⟨0, _⟩ => exact Fin.ext (Nat.zero_add _)
  | ⟨1, _⟩ => rfl

/-! ## Reading a concatenation, a reshaped block and a column's squared norm -/

/-- A concatenation along the rows into a 16 × 2048 matrix reads, at row `pre + c`, row `c` of the piece whose rows
    start at row `pre`. -/
theorem cat_read {α : Type} (xs : List ((s : Shape) × (s.Idx → α))) (h : Shape.Concatenates (xs.map (·.1)) S16x2048 0)
    (n : Nat) (hn : n < xs.length) (m : Nat) (x₁ : (⟨2, ![m, 2048]⟩ : Shape).Idx → α)
    (hx : xs[n] = ⟨⟨2, ![m, 2048]⟩, x₁⟩) (pre : Nat)
    (hpre : (((xs.take n).map (·.1)).map fun s =>
      if h : s.rank = S16x2048.rank then s.size ((0 : Fin S16x2048.rank).cast h.symm) else 0).sum = pre)
    (c : Fin m) (i : Fin 2048) (hlt : pre + c.val < 16) :
    concatenate S16x2048 0 xs h (ix2 ⟨pre + c.val, hlt⟩ i) = x₁ (ix2 c i) := by
  refine concatenate_apply_piece (t := S16x2048) 0 xs h _ n hn _ x₁ hx rfl pre hpre (ix2 c i) ?_ ?_
  · intro b hb
    match b with
    | ⟨0, _⟩ => exact absurd rfl hb
    | ⟨1, _⟩ => rfl
  · rfl

/-- A `[1, 3, 2048]` block read as `[3, 2048]`. -/
theorem cast3 (x : Vec Ideal S1x3x2048 .f32) (c : Fin 3) (i : Fin 2048) :
    shapeCast S3x2048 x shapeCasts_S1x3x2048_S3x2048 (ix2 c i) = x (ix3 (0 : Fin 1) c i) :=
  shapeCast_1ab_ab_apply x _ c i

/-- The squared norm of column `i`: the sum over the three coordinates of the squares. -/
theorem norm_apply (x : Vec Ideal S1x3x2048 .f32) (u : Fin 1) (i : Fin 2048) :
    shapeCast S1x2048 (multiReduction (F := Ideal) .add [0] S2048
        (mulf (shapeCast S3x2048 x shapeCasts_S1x3x2048_S3x2048) (shapeCast S3x2048 x shapeCasts_S1x3x2048_S3x2048))
        0x00000000#32 reduces_S3x2048_S2048 (.inl rfl) rfl) shapeCasts_S2048_S1x2048 (ix2 u i)
      = ∑ k : Fin 3, x (ix3 (0 : Fin 1) k i) * x (ix3 (0 : Fin 1) k i) := by
  rw [shapeCast_a_1a_apply]
  refine (Ideal.multiReduction_add_single _ _ reduces_S3x2048_S2048 _ _ (ix1 i)).trans ?_
  show ∑ k : Fin 3, _ = ∑ k : Fin 3, _
  refine Finset.sum_congr rfl fun (k : Fin 3) _ => ?_
  have e : reduces_S3x2048_S2048.lift (ix1 i) k = ix2 k i := by
    funext ax
    match ax with
    | ⟨0, _⟩ => rfl
    | ⟨1, _⟩ => rfl
  rw [e]
  exact congrArg₂ (· * ·) (cast3 x k i) (cast3 x k i)

/-! ## The rows of the first operand, column `i`, in terms of the first block -/

section Lhs
variable (x0 : Vec Ideal S1x3x2048 .f32)

/-- Rows 0 to 2: the coordinates of the point times `-2`. -/
theorem lhs_p0 (c : Fin 3) (i : Fin 2048) :
    k0_pay4 x0 (ix2 ⟨0 + c.val, by omega⟩ i) = x0 (ix3 (0 : Fin 1) c i) * Ideal.ofBits .f32 0xC0000000#32 := by
  unfold k0_pay4
  refine (cat_read _ _ 0 (by simp) 3 _ rfl 0 rfl c i _).trans ?_
  exact congrArg (· * Ideal.ofBits .f32 0xC0000000#32) (cast3 x0 c i)

/-- Rows 3 to 5: what is left of `-2a` after its own value is taken off. -/
theorem lhs_p1 (c : Fin 3) (i : Fin 2048) :
    k0_pay4 x0 (ix2 ⟨3 + c.val, by omega⟩ i) = x0 (ix3 (0 : Fin 1) c i) * Ideal.ofBits .f32 0xC0000000#32 - x0 (ix3 (0 : Fin 1) c i) * Ideal.ofBits .f32 0xC0000000#32 := by
  unfold k0_pay4
  refine (cat_read _ _ 1 (by simp) 3 _ rfl 3 rfl c i _).trans ?_
  exact congrArg₂ (· - ·) (congrArg (· * Ideal.ofBits .f32 0xC0000000#32) (cast3 x0 c i)) (congrArg (· * Ideal.ofBits .f32 0xC0000000#32) (cast3 x0 c i))

/-- Rows 6 to 8: `-2a` again. -/
theorem lhs_p2 (c : Fin 3) (i : Fin 2048) :
    k0_pay4 x0 (ix2 ⟨6 + c.val, by omega⟩ i) = x0 (ix3 (0 : Fin 1) c i) * Ideal.ofBits .f32 0xC0000000#32 := by
  unfold k0_pay4
  refine (cat_read _ _ 2 (by simp) 3 _ rfl 6 rfl c i _).trans ?_
  exact congrArg (· * Ideal.ofBits .f32 0xC0000000#32) (cast3 x0 c i)

/-- Rows 9 to 11: the remainder of `-2a` again. -/
theorem lhs_p3 (c : Fin 3) (i : Fin 2048) :
    k0_pay4 x0 (ix2 ⟨9 + c.val, by omega⟩ i) = x0 (ix3 (0 : Fin 1) c i) * Ideal.ofBits .f32 0xC0000000#32 - x0 (ix3 (0 : Fin 1) c i) * Ideal.ofBits .f32 0xC0000000#32 := by
  unfold k0_pay4
  refine (cat_read _ _ 3 (by simp) 3 _ rfl 9 rfl c i _).trans ?_
  exact congrArg₂ (· - ·) (congrArg (· * Ideal.ofBits .f32 0xC0000000#32) (cast3 x0 c i)) (congrArg (· * Ideal.ofBits .f32 0xC0000000#32) (cast3 x0 c i))

/-- Row 12: one. -/
theorem lhs_p4 (c : Fin 1) (i : Fin 2048) :
    k0_pay4 x0 (ix2 ⟨12 + c.val, by omega⟩ i) = Ideal.ofBits .bf16 0x3F80#16 := by
  unfold k0_pay4
  refine (cat_read _ _ 4 (by simp) 1 _ rfl 12 rfl c i _).trans ?_
  rfl

/-- Row 13: one. -/
theorem lhs_p5 (c : Fin 1) (i : Fin 2048) :
    k0_pay4 x0 (ix2 ⟨13 + c.val, by omega⟩ i) = Ideal.ofBits .bf16 0x3F80#16 := by
  unfold k0_pay4
  refine (cat_read _ _ 5 (by simp) 1 _ rfl 13 rfl c i _).trans ?_
  rfl

/-- Row 14: the squared norm `|a|²`. -/
theorem lhs_p6 (c : Fin 1) (i : Fin 2048) :
    k0_pay4 x0 (ix2 ⟨14 + c.val, by omega⟩ i) = ∑ k : Fin 3, x0 (ix3 (0 : Fin 1) k i) * x0 (ix3 (0 : Fin 1) k i) := by
  unfold k0_pay4
  refine (cat_read _ _ 6 (by simp) 1 _ rfl 14 rfl c i _).trans ?_
  exact norm_apply x0 c i

/-- Row 15: what is left of `|a|²` after its own value is taken off. -/
theorem lhs_p7 (c : Fin 1) (i : Fin 2048) :
    k0_pay4 x0 (ix2 ⟨15 + c.val, by omega⟩ i) = (∑ k : Fin 3, x0 (ix3 (0 : Fin 1) k i) * x0 (ix3 (0 : Fin 1) k i)) - (∑ k : Fin 3, x0 (ix3 (0 : Fin 1) k i) * x0 (ix3 (0 : Fin 1) k i)) := by
  unfold k0_pay4
  refine (cat_read _ _ 7 (by simp) 1 _ rfl 15 rfl c i _).trans ?_
  exact congrArg₂ (· - ·) (norm_apply x0 c i) (norm_apply x0 c i)

end Lhs

/-! ## The rows of the second operand, column `j`, in terms of the second block -/

section Rhs
variable (x1 : Vec Ideal S1x3x2048 .f32)

/-- Rows 0 to 2: the coordinates of the point. -/
theorem rhs_p0 (c : Fin 3) (j : Fin 2048) :
    k0_pay5 x1 (ix2 ⟨0 + c.val, by omega⟩ j) = x1 (ix3 (0 : Fin 1) c j) := by
  unfold k0_pay5
  refine (cat_read _ _ 0 (by simp) 3 _ rfl 0 rfl c j _).trans ?_
  exact cast3 x1 c j

/-- Rows 3 to 5: the coordinates again. -/
theorem rhs_p1 (c : Fin 3) (j : Fin 2048) :
    k0_pay5 x1 (ix2 ⟨3 + c.val, by omega⟩ j) = x1 (ix3 (0 : Fin 1) c j) := by
  unfold k0_pay5
  refine (cat_read _ _ 1 (by simp) 3 _ rfl 3 rfl c j _).trans ?_
  exact cast3 x1 c j

/-- Rows 6 to 8: what is left of `b` after its own value is taken off. -/
theorem rhs_p2 (c : Fin 3) (j : Fin 2048) :
    k0_pay5 x1 (ix2 ⟨6 + c.val, by omega⟩ j) = x1 (ix3 (0 : Fin 1) c j) - x1 (ix3 (0 : Fin 1) c j) := by
  unfold k0_pay5
  refine (cat_read _ _ 2 (by simp) 3 _ rfl 6 rfl c j _).trans ?_
  exact congrArg₂ (· - ·) (cast3 x1 c j) (cast3 x1 c j)

/-- Rows 9 to 11: the remainder of `b` again. -/
theorem rhs_p3 (c : Fin 3) (j : Fin 2048) :
    k0_pay5 x1 (ix2 ⟨9 + c.val, by omega⟩ j) = x1 (ix3 (0 : Fin 1) c j) - x1 (ix3 (0 : Fin 1) c j) := by
  unfold k0_pay5
  refine (cat_read _ _ 3 (by simp) 3 _ rfl 9 rfl c j _).trans ?_
  exact congrArg₂ (· - ·) (cast3 x1 c j) (cast3 x1 c j)

/-- Row 12: the squared norm `|b|²`. -/
theorem rhs_p4 (c : Fin 1) (j : Fin 2048) :
    k0_pay5 x1 (ix2 ⟨12 + c.val, by omega⟩ j) = ∑ k : Fin 3, x1 (ix3 (0 : Fin 1) k j) * x1 (ix3 (0 : Fin 1) k j) := by
  unfold k0_pay5
  refine (cat_read _ _ 4 (by simp) 1 _ rfl 12 rfl c j _).trans ?_
  exact norm_apply x1 c j

/-- Row 13: what is left of `|b|²` after its own value is taken off. -/
theorem rhs_p5 (c : Fin 1) (j : Fin 2048) :
    k0_pay5 x1 (ix2 ⟨13 + c.val, by omega⟩ j) = (∑ k : Fin 3, x1 (ix3 (0 : Fin 1) k j) * x1 (ix3 (0 : Fin 1) k j)) - (∑ k : Fin 3, x1 (ix3 (0 : Fin 1) k j) * x1 (ix3 (0 : Fin 1) k j)) := by
  unfold k0_pay5
  refine (cat_read _ _ 5 (by simp) 1 _ rfl 13 rfl c j _).trans ?_
  exact congrArg₂ (· - ·) (norm_apply x1 c j) (norm_apply x1 c j)

/-- Row 14: one. -/
theorem rhs_p6 (c : Fin 1) (j : Fin 2048) :
    k0_pay5 x1 (ix2 ⟨14 + c.val, by omega⟩ j) = Ideal.ofBits .bf16 0x3F80#16 := by
  unfold k0_pay5
  refine (cat_read _ _ 6 (by simp) 1 _ rfl 14 rfl c j _).trans ?_
  rfl

/-- Row 15: one. -/
theorem rhs_p7 (c : Fin 1) (j : Fin 2048) :
    k0_pay5 x1 (ix2 ⟨15 + c.val, by omega⟩ j) = Ideal.ofBits .bf16 0x3F80#16 := by
  unfold k0_pay5
  refine (cat_read _ _ 7 (by simp) 1 _ rfl 15 rfl c j _).trans ?_
  rfl

end Rhs

/-! ## Finite inputs: every row is a real number -/

/-- The first operand's sixteen rows over a point `a` of the first cloud, as real numbers. -/
def Lrow (a : Fin 3 → ℝ) : Fin 16 → ℝ :=
  ![a 0 * -2, a 1 * -2, a 2 * -2, 0, 0, 0, a 0 * -2, a 1 * -2, a 2 * -2, 0, 0, 0, 1, 1, ∑ k, a k * a k, 0]

/-- The second operand's sixteen rows over a point `b` of the second cloud, as real numbers. -/
def Rrow (b : Fin 3 → ℝ) : Fin 16 → ℝ :=
  ![b 0, b 1, b 2, b 0, b 1, b 2, 0, 0, 0, 0, 0, 0, ∑ k, b k * b k, 0, 1, 1]

/-- A finite value less itself is zero. -/
theorem coe_sub_self (r : ℝ) : (r : EReal) - (r : EReal) = ((0 : ℝ) : EReal) := by
  rw [← EReal.coe_sub, sub_self]

/-- The sum of the squares of three finite values is the real sum of squares. -/
theorem coe_norm (x : Vec Ideal S1x3x2048 .f32) (a : Fin 3 → ℝ) (i : Fin 2048)
    (hx : ∀ k : Fin 3, x (ix3 (0 : Fin 1) k i) = ((a k : ℝ) : EReal)) :
    ∑ k : Fin 3, x (ix3 (0 : Fin 1) k i) * x (ix3 (0 : Fin 1) k i) = ((∑ k, a k * a k : ℝ) : EReal) := by
  rw [Fin.sum_univ_three, Fin.sum_univ_three, hx 0, hx 1, hx 2, ← EReal.coe_mul, ← EReal.coe_mul, ← EReal.coe_mul,
    ← EReal.coe_add, ← EReal.coe_add]

/-- Over finite values, row `k` of the first operand at column `i` is entry `k` of the sixteen real rows over
    point `i` of the first cloud. -/
theorem lhs_entry (x0 : Vec Ideal S1x3x2048 .f32) (P : Fin 2048 → Fin 3 → ℝ)
    (h0 : ∀ (k : Fin 3) (i : Fin 2048), x0 (ix3 (0 : Fin 1) k i) = ((P i k : ℝ) : EReal))
    (k : Fin 16) (i : Fin 2048) : k0_pay4 x0 (ix2 k i) = ((Lrow (P i) k : ℝ) : EReal) := by
  have hs : ∀ c : Fin 3, x0 (ix3 (0 : Fin 1) c i) * Ideal.ofBits .f32 0xC0000000#32 = ((P i c * -2 : ℝ) : EReal) :=
    fun c => by rw [h0, Cert.Consts.ofBits_neg2, ← EReal.coe_mul]
  have hd : ∀ c : Fin 3, x0 (ix3 (0 : Fin 1) c i) * Ideal.ofBits .f32 0xC0000000#32
      - x0 (ix3 (0 : Fin 1) c i) * Ideal.ofBits .f32 0xC0000000#32 = ((0 : ℝ) : EReal) :=
    fun c => by rw [hs]; exact coe_sub_self _
  have hn := coe_norm x0 (P i) i (fun k => h0 k i)
  have hnd : (∑ k : Fin 3, x0 (ix3 (0 : Fin 1) k i) * x0 (ix3 (0 : Fin 1) k i))
      - (∑ k : Fin 3, x0 (ix3 (0 : Fin 1) k i) * x0 (ix3 (0 : Fin 1) k i)) = ((0 : ℝ) : EReal) := by
    rw [hn]; exact coe_sub_self _
  fin_cases k
  · exact (lhs_p0 x0 0 i).trans (hs 0)
  · exact (lhs_p0 x0 1 i).trans (hs 1)
  · exact (lhs_p0 x0 2 i).trans (hs 2)
  · exact (lhs_p1 x0 0 i).trans (hd 0)
  · exact (lhs_p1 x0 1 i).trans (hd 1)
  · exact (lhs_p1 x0 2 i).trans (hd 2)
  · exact (lhs_p2 x0 0 i).trans (hs 0)
  · exact (lhs_p2 x0 1 i).trans (hs 1)
  · exact (lhs_p2 x0 2 i).trans (hs 2)
  · exact (lhs_p3 x0 0 i).trans (hd 0)
  · exact (lhs_p3 x0 1 i).trans (hd 1)
  · exact (lhs_p3 x0 2 i).trans (hd 2)
  · exact (lhs_p4 x0 0 i).trans Cert.Consts.ofBits_one_bf16
  · exact (lhs_p5 x0 0 i).trans Cert.Consts.ofBits_one_bf16
  · exact (lhs_p6 x0 0 i).trans hn
  · exact (lhs_p7 x0 0 i).trans hnd

/-- Over finite values, row `k` of the second operand at column `j` is entry `k` of the sixteen real rows over
    point `j` of the second cloud. -/
theorem rhs_entry (x1 : Vec Ideal S1x3x2048 .f32) (G : Fin 2048 → Fin 3 → ℝ)
    (h1 : ∀ (k : Fin 3) (j : Fin 2048), x1 (ix3 (0 : Fin 1) k j) = ((G j k : ℝ) : EReal))
    (k : Fin 16) (j : Fin 2048) : k0_pay5 x1 (ix2 k j) = ((Rrow (G j) k : ℝ) : EReal) := by
  have hd : ∀ c : Fin 3, x1 (ix3 (0 : Fin 1) c j) - x1 (ix3 (0 : Fin 1) c j) = ((0 : ℝ) : EReal) :=
    fun c => by rw [h1]; exact coe_sub_self _
  have hn := coe_norm x1 (G j) j (fun k => h1 k j)
  have hnd : (∑ k : Fin 3, x1 (ix3 (0 : Fin 1) k j) * x1 (ix3 (0 : Fin 1) k j))
      - (∑ k : Fin 3, x1 (ix3 (0 : Fin 1) k j) * x1 (ix3 (0 : Fin 1) k j)) = ((0 : ℝ) : EReal) := by
    rw [hn]; exact coe_sub_self _
  fin_cases k
  · exact (rhs_p0 x1 0 j).trans (h1 0 j)
  · exact (rhs_p0 x1 1 j).trans (h1 1 j)
  · exact (rhs_p0 x1 2 j).trans (h1 2 j)
  · exact (rhs_p1 x1 0 j).trans (h1 0 j)
  · exact (rhs_p1 x1 1 j).trans (h1 1 j)
  · exact (rhs_p1 x1 2 j).trans (h1 2 j)
  · exact (rhs_p2 x1 0 j).trans (hd 0)
  · exact (rhs_p2 x1 1 j).trans (hd 1)
  · exact (rhs_p2 x1 2 j).trans (hd 2)
  · exact (rhs_p3 x1 0 j).trans (hd 0)
  · exact (rhs_p3 x1 1 j).trans (hd 1)
  · exact (rhs_p3 x1 2 j).trans (hd 2)
  · exact (rhs_p4 x1 0 j).trans hn
  · exact (rhs_p5 x1 0 j).trans hnd
  · exact (rhs_p6 x1 0 j).trans Cert.Consts.ofBits_one_bf16
  · exact (rhs_p7 x1 0 j).trans Cert.Consts.ofBits_one_bf16

/-- The sixteen products: `-2 a·b` from the first three rows, nothing from the nine rows that hold a zero factor,
    `|b|²` and `|a|²` from the rows that pair a norm with a one; together `|a - b|²`. -/
theorem rows_sum (a b : Fin 3 → ℝ) : ∑ k : Fin 16, Lrow a k * Rrow b k = Chamfer.sqd a b := by
  simp [Lrow, Rrow, Fin.sum_univ_succ, Chamfer.sqd]
  ring

/-- Entry `(p, q)` of strip `r` is the squared distance from point `256 r + p` of the first cloud to point `q`
    of the second. -/
theorem strip_value (x0 x1 : Vec Ideal S1x3x2048 .f32) (P G : Fin 2048 → Fin 3 → ℝ)
    (h0 : ∀ (k : Fin 3) (i : Fin 2048), x0 (ix3 (0 : Fin 1) k i) = ((P i k : ℝ) : EReal))
    (h1 : ∀ (k : Fin 3) (j : Fin 2048), x1 (ix3 (0 : Fin 1) k j) = ((G j k : ℝ) : EReal))
    (o : Nat) (h : S16x2048.Slices ![0, o] S16x256) (r : Fin 8) (ho : o = 256 * r.val) (p : Fin 256) (q : Fin 2048) :
    Body.strip o h (k0_pay4 x0) (k0_pay5 x1) (ix2 p q)
      = ((Chamfer.sqd (P (Chamfer.sidx r p)) (G q) : ℝ) : EReal) := by
  subst ho
  rw [strip_apply]
  simp only [lhs_entry x0 P h0, rhs_entry x1 G h1, ← EReal.coe_mul]
  rw [ERealFold.coe_sum, rows_sum]
  rfl

end Cert.KernelIdeal.Dist

end
-- ==== Proof.Reductions.lean ====
/-
  The reductions the body applies to one strip `D` of the distance matrix, over finite entries: the
  minimum of each row summed over the strip's 256 rows, the minimum of each column, and the sum of a
  row vector of 2048 finite entries.
-/
import proofs.«144426_g47682726920370_cont_8to1_c_550_9_alg».proof.Proof.BodyTerms
import proofs.«144426_g47682726920370_cont_8to1_c_550_9_alg».proof.Proof.Consts
import proofs.«144426_g47682726920370_cont_8to1_c_550_9_alg».proof.Proof.LibERealFold
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Red

open Cert.KernelIdeal Cert.KernelIdeal.Gen Idealize.ShloMosaic Idealize.ShloMosaic.ValueIdx

/-- The strip's row minima, summed over its 256 rows (a vector of one entry). -/
def rowMinSum (D : FVec Ideal S256x2048 .f32) : FVec Ideal S1 .f32 :=
  multiReduction .add [1, 2] S1
    (shapeCast S1x256x1 (shapeCast S256x1 (multiReduction .minimumf [1] S256 D 0x7F800000#32 reduces_S256x2048_S256 (.inl rfl) rfl)
      shapeCasts_S256_S256x1) shapeCasts_S256x1_S1x256x1) 0x00000000#32 reduces_S1x256x1_S1 (.inl rfl) rfl

/-- The strip's column minima (a row vector). -/
def colMin (D : FVec Ideal S256x2048 .f32) : FVec Ideal S1x2048 .f32 :=
  shapeCast S1x2048 (multiReduction .minimumf [0] S2048 D 0x7F800000#32 reduces_S256x2048_S2048 (.inl rfl) rfl) shapeCasts_S2048_S1x2048

/-- The sum of a row vector's 2048 entries (a vector of one entry). -/
def rowVecSum (v : FVec Ideal S1x2048 .f32) : FVec Ideal S1 .f32 :=
  multiReduction .add [1, 2] S1 (shapeCast S1x1x2048 v shapeCasts_S1x2048_S1x1x2048) 0x00000000#32 reduces_S1x1x2048_S1 (.inl rfl) rfl

/-- The one entry of a one-entry vector, as the body extracts it. -/
def cell (v : FVec Ideal S1 .f32) : EReal :=
  extractAt ![0, 0, 0] (shapeCast S1x1x1 v shapeCasts_S1_S1x1x1) inpos_S1x1x1_p0_0_0

/-- The minimum along a row, started from the pattern of `+∞`: at row `p` the minimum, from the top
    element, over the 2048 columns `q` of the entry `(p, q)`. The indices that drop to `p` are `(p, q)`. -/
theorem rowMin_apply (D : FVec Ideal S256x2048 .f32) (p : Fin 256) :
    multiReduction .minimumf [1] S256 D 0x7F800000#32 reduces_S256x2048_S256 (.inl rfl) rfl (ix1 p)
      = (Finset.univ : Finset (Fin 2048)).fold min (⊤ : EReal) (fun q => D (ix2 p q)) := by
  refine (multiReduction_minimumf_eq_fold D _ reduces_S256x2048_S256 (.inl rfl) rfl (ix1 p)).trans ?_
  refine (reduces_S256x2048_S256.fold_filter_drop_single _ _ D (ix1 p)).trans ?_
  have hf : (D ∘ reduces_S256x2048_S256.lift (ix1 p)) = fun q : Fin 2048 => D (ix2 p q) := by
    funext q
    refine congrArg D (funext fun c => Fin.ext ?_)
    match c with
    | ⟨0, _⟩ => rfl
    | ⟨1, _⟩ => rfl
  rw [hf]
  show (Finset.univ : Finset (Fin 2048)).fold min (Ideal.ofBits .f32 0x7F800000#32) _ = _
  rw [Cert.Consts.ofBits_inf]

/-- The minimum down a column: at column `q` the minimum, from the top element, over the 256 rows `p`
    of the entry `(p, q)`. -/
theorem colMinRaw_apply (D : FVec Ideal S256x2048 .f32) (q : Fin 2048) :
    multiReduction .minimumf [0] S2048 D 0x7F800000#32 reduces_S256x2048_S2048 (.inl rfl) rfl (ix1 q)
      = (Finset.univ : Finset (Fin 256)).fold min (⊤ : EReal) (fun p => D (ix2 p q)) := by
  refine (multiReduction_minimumf_eq_fold D _ reduces_S256x2048_S2048 (.inl rfl) rfl (ix1 q)).trans ?_
  refine (reduces_S256x2048_S2048.fold_filter_drop_single _ _ D (ix1 q)).trans ?_
  have hf : (D ∘ reduces_S256x2048_S2048.lift (ix1 q)) = fun p : Fin 256 => D (ix2 p q) := by
    funext p
    refine congrArg D (funext fun c => Fin.ext ?_)
    match c with
    | ⟨0, _⟩ => rfl
    | ⟨1, _⟩ => rfl
  rw [hf]
  show (Finset.univ : Finset (Fin 256)).fold min (Ideal.ofBits .f32 0x7F800000#32) _ = _
  rw [Cert.Consts.ofBits_inf]

/-- The index set of `[1, 256, 1]` is its middle coordinate's range. -/
def midEquiv : Fin 256 ≃ S1x256x1.Idx where
  toFun p := ix3 (0 : Fin 1) p (0 : Fin 1)
  invFun i := i 1
  left_inv _ := rfl
  right_inv i := by
    funext c
    match c with
    | ⟨0, _⟩ => exact Fin.ext (by have h0 : (i 0).val < 1 := (i 0).isLt; show 0 = (i 0).val; omega)
    | ⟨1, _⟩ => rfl
    | ⟨2, _⟩ => exact Fin.ext (by have h2 : (i 2).val < 1 := (i 2).isLt; show 0 = (i 2).val; omega)

/-- The index set of `[1, 1, 2048]` is its last coordinate's range. -/
def lastEquiv : Fin 2048 ≃ S1x1x2048.Idx where
  toFun q := ix3 (0 : Fin 1) (0 : Fin 1) q
  invFun i := i 2
  left_inv _ := rfl
  right_inv i := by
    funext c
    match c with
    | ⟨0, _⟩ => exact Fin.ext (by have h0 : (i 0).val < 1 := (i 0).isLt; show 0 = (i 0).val; omega)
    | ⟨1, _⟩ => exact Fin.ext (by have h1 : (i 1).val < 1 := (i 1).isLt; show 0 = (i 1).val; omega)
    | ⟨2, _⟩ => rfl

/-- The one entry of the sum, from zero, of a `[1, 256, 1]` array over its last two axes is the sum of
    the array along its middle axis: the result has one index, and every source index drops to it. -/
theorem cell_sum_mid (X : FVec Ideal S1x256x1 .f32) :
    cell (multiReduction .add [1, 2] S1 X 0x00000000#32 reduces_S1x256x1_S1 (.inl rfl) rfl)
      = ∑ p : Fin 256, X (ix3 (0 : Fin 1) p (0 : Fin 1)) := by
  unfold cell extractAt shapeCast
  refine (Ideal.multiReduction_add_total X _ reduces_S1x256x1_S1 (by decide) (.inl rfl) rfl _).trans ?_
  exact (Equiv.sum_comp midEquiv X).symm

/-- The same for a `[1, 1, 2048]` array: the sum along its last axis. -/
theorem cell_sum_last (X : FVec Ideal S1x1x2048 .f32) :
    cell (multiReduction .add [1, 2] S1 X 0x00000000#32 reduces_S1x1x2048_S1 (.inl rfl) rfl)
      = ∑ q : Fin 2048, X (ix3 (0 : Fin 1) (0 : Fin 1) q) := by
  unfold cell extractAt shapeCast
  refine (Ideal.multiReduction_add_total X _ reduces_S1x1x2048_S1 (by decide) (.inl rfl) rfl _).trans ?_
  exact (Equiv.sum_comp lastEquiv X).symm

/-- A vector of 256 entries cast to a column reads, at `(p, 0)`, entry `p`. -/
theorem cast_col_apply (R : FVec Ideal S256 .f32) (p : Fin 256) (u : Fin 1) :
    shapeCast S256x1 R shapeCasts_S256_S256x1 (ix2 p u) = R (ix1 p) :=
  shapeCast_apply R shapeCasts_S256_S256x1 _ _ (by
    have hu : u.val = 0 := by omega
    rw [Shape.rowMajor_val_two, Shape.rowMajor_val_one]
    show p.val = p.val * 1 + u.val
    omega)

theorem rowMinSum_value (D : FVec Ideal S256x2048 .f32) (d : Fin 256 → Fin 2048 → ℝ)
    (hD : ∀ p q, D (ix2 p q) = ((d p q : ℝ) : EReal)) :
    cell (rowMinSum D) = ((∑ p, Finset.univ.inf' Finset.univ_nonempty (fun q => d p q) : ℝ) : EReal) := by
  unfold rowMinSum
  rw [cell_sum_mid, ← ERealFold.coe_sum]
  refine Finset.sum_congr rfl fun p _ => ?_
  rw [shapeCast_ab_1ab_apply, cast_col_apply, rowMin_apply]
  simp only [hD]
  exact ERealFold.fold_min_top_coe (fun q => d p q)

theorem colMin_value (D : FVec Ideal S256x2048 .f32) (d : Fin 256 → Fin 2048 → ℝ)
    (hD : ∀ p q, D (ix2 p q) = ((d p q : ℝ) : EReal)) (q : Fin 2048) :
    colMin D (ix2 (0 : Fin 1) q) = ((Finset.univ.inf' Finset.univ_nonempty (fun p => d p q) : ℝ) : EReal) := by
  unfold colMin
  rw [shapeCast_a_1a_apply, colMinRaw_apply]
  simp only [hD]
  exact ERealFold.fold_min_top_coe (fun p => d p q)

theorem rowVecSum_value (v : FVec Ideal S1x2048 .f32) (c : Fin 2048 → ℝ)
    (hv : ∀ q, v (ix2 (0 : Fin 1) q) = ((c q : ℝ) : EReal)) :
    cell (rowVecSum v) = ((∑ q, c q : ℝ) : EReal) := by
  unfold rowVecSum
  rw [cell_sum_last, ← ERealFold.coe_sum]
  refine Finset.sum_congr rfl fun q _ => ?_
  rw [shapeCast_ab_1ab_apply, hv]

end Cert.KernelIdeal.Red

end
-- ==== Proof.BodyValue.lean ====
/-
  What one grid point stores, over finite input blocks: the block's previous entry plus the batch
  element's two directions. The eight strips' row-minimum sums add up to the sum over all 2048
  points of the first cloud of the squared distance to the nearest point of the second; the eight
  strips' column minima, combined, are for each point of the second cloud the squared distance to the
  nearest point of the first, and their sum is the other direction.
-/
import proofs.«144426_g47682726920370_cont_8to1_c_550_9_alg».proof.Proof.DistMatrix
import proofs.«144426_g47682726920370_cont_8to1_c_550_9_alg».proof.Proof.Reductions

noncomputable section

namespace Cert.KernelIdeal.BodyValue

open Cert.KernelIdeal Cert.KernelIdeal.Gen Idealize.ShloMosaic Idealize.ShloMosaic.ValueIdx

open Cert.KernelIdeal.Red

/-- The minimum of two real values, read in the extended reals. -/
theorem min_coe (a b : ℝ) : min (a : EReal) (b : EReal) = ((min a b : ℝ) : EReal) :=
  (EReal.coe_strictMono.monotone.map_min).symm

/-! ## The payloads as terms of the eight strips

Each payload of the body, read at the ideal values, is by definition one of: a strip of the distance
matrix, the sum of a strip's row minima added to the running sum, or a strip's column minima combined
with the running minimum. -/

section Payloads

variable (x0 x1 : Vec Ideal S1x3x2048 .f32) (A B : FVec Ideal S16x2048 .bf16)

theorem pay6_eq : k0_pay6 x0 x1 = Body.strip 0 slices_S16x2048_o0_0_S16x256 (k0_pay4 x0) (k0_pay5 x1) := rfl
theorem pay9_eq : k0_pay9 x0 x1 = Body.strip 256 slices_S16x2048_o0_256_S16x256 (k0_pay4 x0) (k0_pay5 x1) := rfl
theorem pay10_eq : k0_pay10 A B = Body.strip 512 slices_S16x2048_o0_512_S16x256 A B := rfl
theorem pay11_eq : k0_pay11 A B = Body.strip 768 slices_S16x2048_o0_768_S16x256 A B := rfl
theorem pay14_eq : k0_pay14 A B = Body.strip 1024 slices_S16x2048_o0_1024_S16x256 A B := rfl
theorem pay17_eq : k0_pay17 A B = Body.strip 1280 slices_S16x2048_o0_1280_S16x256 A B := rfl
theorem pay18_eq : k0_pay18 A B = Body.strip 1536 slices_S16x2048_o0_1536_S16x256 A B := rfl
theorem pay19_eq : k0_pay19 A B = Body.strip 1792 slices_S16x2048_o0_1792_S16x256 A B := rfl

/-- The first strip's row-minimum sum, in every entry of a one-entry block. -/
theorem pay8_eq : k0_pay8 x0 x1 = broadcast S1x1 (cell (rowMinSum (k0_pay6 x0 x1)) : Ideal .f32) := rfl

/-- Strips 1, 2 and 3 added to the running sum. -/
theorem pay12_eq (v41 : FVec Ideal S1x1 .f32) (v43 : FVec Ideal S256x2048 .f32) :
    k0_pay12 A B v41 v43
      = addf (addf (addf v41 (broadcast S1x1 (cell (rowMinSum v43) : Ideal .f32)))
          (broadcast S1x1 (cell (rowMinSum (k0_pay10 A B)) : Ideal .f32)))
          (broadcast S1x1 (cell (rowMinSum (k0_pay11 A B)) : Ideal .f32)) := rfl

theorem pay16_eq : k0_pay16 A B = rowMinSum (k0_pay14 A B) := rfl

/-- Strips 4 to 7 added to the running sum. -/
theorem pay20_eq (v79 : FVec Ideal S1x1 .f32) (v88 : FVec Ideal S1 .f32) :
    k0_pay20 A B v79 v88
      = addf (addf (addf (addf v79 (broadcast S1x1 (cell v88 : Ideal .f32)))
          (broadcast S1x1 (cell (rowMinSum (k0_pay17 A B)) : Ideal .f32)))
          (broadcast S1x1 (cell (rowMinSum (k0_pay18 A B)) : Ideal .f32)))
          (broadcast S1x1 (cell (rowMinSum (k0_pay19 A B)) : Ideal .f32)) := rfl

theorem pay7_eq : k0_pay7 x0 x1 = colMin (k0_pay6 x0 x1) := rfl

/-- The column minima of strips 1, 2 and 3 combined with the running minimum. -/
theorem pay13_eq (v36 : FVec Ideal S1x2048 .f32) (v43 : FVec Ideal S256x2048 .f32) :
    k0_pay13 A B v36 v43
      = minimumf (minimumf (minimumf v36 (colMin v43)) (colMin (k0_pay10 A B))) (colMin (k0_pay11 A B)) := rfl

theorem pay15_eq : k0_pay15 A B = colMin (k0_pay14 A B) := rfl

/-- The last payload: the combined column minima of all eight strips, summed, as a one-entry block. -/
theorem pay21_eq (v80 v86 : FVec Ideal S1x2048 .f32) :
    k0_pay21 A B v80 v86
      = shapeCast S1x1x1 (rowVecSum (minimumf (minimumf (minimumf (minimumf v80 v86) (colMin (k0_pay17 A B)))
          (colMin (k0_pay18 A B))) (colMin (k0_pay19 A B)))) shapeCasts_S1_S1x1x1 := rfl

/-- The one entry of a one-entry vector cast to `[1, 1, 1]` is, by definition, its cell. -/
theorem extract_cast_eq_cell (v : FVec Ideal S1 .f32) :
    extractAt ![0, 0, 0] (shapeCast S1x1x1 v shapeCasts_S1_S1x1x1) inpos_S1x1x1_p0_0_0 = cell v := rfl

/-- The stored block: the previous block plus the two parts. -/
theorem pay2_eq (v131 : FVec Ideal S1x1 .f32) (v135 : FVec Ideal S1x1x1 .f32) (v142 : Vec Ideal S1x1 .f32) :
    k0_pay2 v131 v135 v142
      = addf (shapeCast S1x1 v142 shapeCasts_S1x1_S1x1)
          (addf v131 (broadcast S1x1 (extractAt ![0, 0, 0] v135 inpos_S1x1x1_p0_0_0))) := rfl

/-- A block plus a value copied to every entry, read at an entry. -/
theorem add_bcast_apply (a : FVec Ideal S1x1 .f32) (c : Ideal .f32) (y : S1x1.Idx) :
    addf a (broadcast S1x1 c) y = a y + c := rfl

end Payloads

/-! ## The two directions over eight strips of finite entries -/

section Strips

variable (D0 D1 D2 D3 D4 D5 D6 D7 : FVec Ideal S256x2048 .f32) (P G : Fin 2048 → Fin 3 → ℝ)
  (s0 : ∀ p q, D0 (ix2 p q) = ((Chamfer.sqd (P (Chamfer.sidx 0 p)) (G q) : ℝ) : EReal))
  (s1 : ∀ p q, D1 (ix2 p q) = ((Chamfer.sqd (P (Chamfer.sidx 1 p)) (G q) : ℝ) : EReal))
  (s2 : ∀ p q, D2 (ix2 p q) = ((Chamfer.sqd (P (Chamfer.sidx 2 p)) (G q) : ℝ) : EReal))
  (s3 : ∀ p q, D3 (ix2 p q) = ((Chamfer.sqd (P (Chamfer.sidx 3 p)) (G q) : ℝ) : EReal))
  (s4 : ∀ p q, D4 (ix2 p q) = ((Chamfer.sqd (P (Chamfer.sidx 4 p)) (G q) : ℝ) : EReal))
  (s5 : ∀ p q, D5 (ix2 p q) = ((Chamfer.sqd (P (Chamfer.sidx 5 p)) (G q) : ℝ) : EReal))
  (s6 : ∀ p q, D6 (ix2 p q) = ((Chamfer.sqd (P (Chamfer.sidx 6 p)) (G q) : ℝ) : EReal))
  (s7 : ∀ p q, D7 (ix2 p q) = ((Chamfer.sqd (P (Chamfer.sidx 7 p)) (G q) : ℝ) : EReal))

include s0 s1 s2 s3 s4 s5 s6 s7

/-- Each strip's row minima are the nearest squared distances of its 256 points of the first cloud; the eight
    sums, added in order, are the sum over all 2048 points. -/
theorem rows_value :
    ((((((cell (rowMinSum D0) + cell (rowMinSum D1)) + cell (rowMinSum D2)) + cell (rowMinSum D3))
      + cell (rowMinSum D4)) + cell (rowMinSum D5)) + cell (rowMinSum D6)) + cell (rowMinSum D7)
      = ((Chamfer.rowSum P G : ℝ) : EReal) := by
  rw [rowMinSum_value D0 (fun p q => Chamfer.sqd (P (Chamfer.sidx 0 p)) (G q)) s0,
    rowMinSum_value D1 (fun p q => Chamfer.sqd (P (Chamfer.sidx 1 p)) (G q)) s1,
    rowMinSum_value D2 (fun p q => Chamfer.sqd (P (Chamfer.sidx 2 p)) (G q)) s2,
    rowMinSum_value D3 (fun p q => Chamfer.sqd (P (Chamfer.sidx 3 p)) (G q)) s3,
    rowMinSum_value D4 (fun p q => Chamfer.sqd (P (Chamfer.sidx 4 p)) (G q)) s4,
    rowMinSum_value D5 (fun p q => Chamfer.sqd (P (Chamfer.sidx 5 p)) (G q)) s5,
    rowMinSum_value D6 (fun p q => Chamfer.sqd (P (Chamfer.sidx 6 p)) (G q)) s6,
    rowMinSum_value D7 (fun p q => Chamfer.sqd (P (Chamfer.sidx 7 p)) (G q)) s7]
  simp only [← EReal.coe_add]
  exact congrArg (fun r : ℝ => (r : EReal)) (Chamfer.strips_sum (fun i => Chamfer.nearest P G i))

/-- At column `q` the eight strips' column minima, combined in order, are the minimum over all 2048 points of the
    first cloud of the squared distance to point `q` of the second: its nearest squared distance, the distance
    being symmetric. Their sum over the columns is the other direction. -/
theorem cols_value :
    cell (rowVecSum (minimumf (minimumf (minimumf (minimumf (minimumf (minimumf (minimumf
      (colMin D0) (colMin D1)) (colMin D2)) (colMin D3)) (colMin D4)) (colMin D5)) (colMin D6)) (colMin D7)))
      = ((Chamfer.rowSum G P : ℝ) : EReal) := by
  refine rowVecSum_value _ (fun q => Chamfer.nearest G P q) fun q => ?_
  simp only [minimumf_apply]
  rw [colMin_value D0 (fun p q => Chamfer.sqd (P (Chamfer.sidx 0 p)) (G q)) s0 q,
    colMin_value D1 (fun p q => Chamfer.sqd (P (Chamfer.sidx 1 p)) (G q)) s1 q,
    colMin_value D2 (fun p q => Chamfer.sqd (P (Chamfer.sidx 2 p)) (G q)) s2 q,
    colMin_value D3 (fun p q => Chamfer.sqd (P (Chamfer.sidx 3 p)) (G q)) s3 q,
    colMin_value D4 (fun p q => Chamfer.sqd (P (Chamfer.sidx 4 p)) (G q)) s4 q,
    colMin_value D5 (fun p q => Chamfer.sqd (P (Chamfer.sidx 5 p)) (G q)) s5 q,
    colMin_value D6 (fun p q => Chamfer.sqd (P (Chamfer.sidx 6 p)) (G q)) s6 q,
    colMin_value D7 (fun p q => Chamfer.sqd (P (Chamfer.sidx 7 p)) (G q)) s7 q]
  simp only [min_coe]
  refine congrArg (fun r : ℝ => (r : EReal)) ((Chamfer.strips_inf (fun i => Chamfer.sqd (P i) (G q))).trans ?_)
  show _ = Finset.univ.inf' Finset.univ_nonempty fun j => Chamfer.sqd (G q) (P j)
  exact congrArg (Finset.univ.inf' Finset.univ_nonempty) (funext fun i => Chamfer.sqd_comm _ _)

/-- Both directions added to a running value. -/
theorem both_value (a : EReal) :
    a + ((((((((cell (rowMinSum D0) + cell (rowMinSum D1)) + cell (rowMinSum D2)) + cell (rowMinSum D3))
        + cell (rowMinSum D4)) + cell (rowMinSum D5)) + cell (rowMinSum D6)) + cell (rowMinSum D7))
      + cell (rowVecSum (minimumf (minimumf (minimumf (minimumf (minimumf (minimumf (minimumf
          (colMin D0) (colMin D1)) (colMin D2)) (colMin D3)) (colMin D4)) (colMin D5)) (colMin D6)) (colMin D7))))
      = a + ((Chamfer.batch P G : ℝ) : EReal) := by
  rw [rows_value D0 D1 D2 D3 D4 D5 D6 D7 P G s0 s1 s2 s3 s4 s5 s6 s7,
    cols_value D0 D1 D2 D3 D4 D5 D6 D7 P G s0 s1 s2 s3 s4 s5 s6 s7, ← EReal.coe_add]
  rfl

end Strips

/-- The block the first grid point resets the output to is zero. -/
theorem pay1_value (y : S1x1.Idx) : (k0_pay1 (F := Ideal)) y = 0 := by
  show Ideal.ofBits .f32 0x00000000#32 = 0
  exact Cert.Consts.ofBits_zero

/-- The stored entry: the previous entry plus both directions of the batch element. -/
theorem total_value (x0 x1 : Vec Ideal S1x3x2048 .f32) (prev : Vec Ideal S1x1 .f32) (P G : Fin 2048 → Fin 3 → ℝ)
    (h0 : ∀ (k : Fin 3) (i : Fin 2048), x0 (ix3 (0 : Fin 1) k i) = ((P i k : ℝ) : EReal))
    (h1 : ∀ (k : Fin 3) (j : Fin 2048), x1 (ix3 (0 : Fin 1) k j) = ((G j k : ℝ) : EReal)) (y : S1x1.Idx) :
    Body.total x0 x1 prev y = prev y + ((Chamfer.batch P G : ℝ) : EReal) := by
  unfold Body.total Body.rowPart Body.colPart
  rw [pay2_eq, pay20_eq, pay12_eq, pay8_eq, pay16_eq, pay21_eq, pay13_eq, pay7_eq, pay15_eq]
  rw [addf_apply, add_bcast_apply, add_bcast_apply, add_bcast_apply, add_bcast_apply, add_bcast_apply,
    add_bcast_apply, add_bcast_apply, add_bcast_apply, broadcast_apply]
  rw [shapeCast_self, extract_cast_eq_cell]
  rw [pay6_eq, pay9_eq, pay10_eq, pay11_eq, pay14_eq, pay17_eq, pay18_eq, pay19_eq]
  exact both_value _ _ _ _ _ _ _ _ P G
    (fun p q => Dist.strip_value x0 x1 P G h0 h1 0 _ 0 rfl p q)
    (fun p q => Dist.strip_value x0 x1 P G h0 h1 256 _ 1 rfl p q)
    (fun p q => Dist.strip_value x0 x1 P G h0 h1 512 _ 2 rfl p q)
    (fun p q => Dist.strip_value x0 x1 P G h0 h1 768 _ 3 rfl p q)
    (fun p q => Dist.strip_value x0 x1 P G h0 h1 1024 _ 4 rfl p q)
    (fun p q => Dist.strip_value x0 x1 P G h0 h1 1280 _ 5 rfl p q)
    (fun p q => Dist.strip_value x0 x1 P G h0 h1 1536 _ 6 rfl p q)
    (fun p q => Dist.strip_value x0 x1 P G h0 h1 1792 _ 7 rfl p q)
    (prev y)

end Cert.KernelIdeal.BodyValue

end
-- ==== Proof.KernelRun.lean ====
/-
  The kernel's run at the ideal instance, over finite inputs: its result is the Chamfer loss.
  Grid point `t` reads batch element `t` of the two transposed arrays; the one-element output block holds,
  after point `n`, the batch elements `0 … n` summed in order; it is written back after the last point, and
  the host divides it by `2 · 8 · 2048`.
-/
import proofs.«144426_g47682726920370_cont_8to1_c_550_9_alg».proof.Proof.Pieces
import proofs.«144426_g47682726920370_cont_8to1_c_550_9_alg».proof.Proof.BodyValue
import proofs.«144426_g47682726920370_cont_8to1_c_550_9_alg».proof.Proof.Spec
import Idealize.ShloMosaic.Lib.Pipeline.Value
import Idealize.ShloMosaic.Lib.StableHlo.Run
import Idealize.ShloMosaic.Lib.Tactic

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two argument arrays as launched. -/
abbrev arg0 (c : Dev nD) : S8x2048x3.Idx → EReal := m ((c.tc : Thread nD τ).loc main_arg0)
abbrev arg1 (c : Dev nD) : S8x2048x3.Idx → EReal := m ((c.tc : Thread nD τ).loc main_arg1)

/-- The region finds the first transposed array: entry `(b, k, i)` is entry `(b, i, k)` of the first argument. -/
theorem V_v0 (c : Dev nD) (b : Fin 8) (k : Fin 3) (i : Fin 2048) :
    (V m c main_v0 : S8x3x2048.Idx → EReal) (ix3 b k i) = arg0 m c (ix3 b i k) := by
  have e : (V m c main_v0 : S8x3x2048.Idx → EReal)
      = transpose S8x3x2048 [0, 2, 1] (arg0 m c) transposes_S8x2048x3_S8x3x2048_0_2_1 := by
    show StableHlo.after hostOps0 (fun b => m (c, b)) (Proc.devRef .tc main_v0) = _
    after_results
  rw [e]
  exact transpose_apply _ _ _ _ _ (fun a => by match a with | ⟨0, _⟩ => rfl | ⟨1, _⟩ => rfl | ⟨2, _⟩ => rfl)

/-- The same for the second. -/
theorem V_v1 (c : Dev nD) (b : Fin 8) (k : Fin 3) (i : Fin 2048) :
    (V m c main_v1 : S8x3x2048.Idx → EReal) (ix3 b k i) = arg1 m c (ix3 b i k) := by
  have e : (V m c main_v1 : S8x3x2048.Idx → EReal)
      = transpose S8x3x2048 [0, 2, 1] (arg1 m c) transposes_S8x2048x3_S8x3x2048_0_2_1 := by
    show StableHlo.after hostOps0 (fun b => m (c, b)) (Proc.devRef .tc main_v1) = _
    after_results
  rw [e]
  exact transpose_apply _ _ _ _ _ (fun a => by match a with | ⟨0, _⟩ => rfl | ⟨1, _⟩ => rfl | ⟨2, _⟩ => rfl)

/-- Batch element `t`, for a grid point `t`. -/
abbrev bOf (t : Fin cfg0.N) : Fin 8 := ⟨t.val, lt_of_lt_of_eq t.isLt N_0⟩

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Grid point `t`'s block of the first transposed array is batch element `t` of the first argument. -/
theorem iblk0_apply (c : Dev nD) (t : Fin cfg0.N) (k : Fin 3) (i : Fin 2048) :
    (iblk m c 0 t : Vec Ideal S1x3x2048 .f32) (ix3 (0 : Fin 1) k i) = arg0 m c (ix3 (bOf t) i k) := by
  rw [← V_v0 m c (bOf t) k i]
  unfold iblk
  rw [View.read_apply]
  show V m c main_v0 _ = V m c main_v0 _
  congr 1
  funext a
  apply Fin.ext
  obtain ⟨e0, e1, e2⟩ := idx0 t
  match a with
  | ⟨0, _⟩ => show win0_0.index t 0 * 1 + 1 * 0 = t.val; rw [e0]; omega
  | ⟨1, _⟩ => show win0_0.index t 1 * 3 + 1 * k.val = k.val; rw [e1]; omega
  | ⟨2, _⟩ => show win0_0.index t 2 * 2048 + 1 * i.val = i.val; rw [e2]; omega

/-- The same for the second. -/
theorem iblk1_apply (c : Dev nD) (t : Fin cfg0.N) (k : Fin 3) (i : Fin 2048) :
    (iblk m c 1 t : Vec Ideal S1x3x2048 .f32) (ix3 (0 : Fin 1) k i) = arg1 m c (ix3 (bOf t) i k) := by
  rw [← V_v1 m c (bOf t) k i]
  unfold iblk
  rw [View.read_apply]
  show V m c main_v1 _ = V m c main_v1 _
  congr 1
  funext a
  apply Fin.ext
  obtain ⟨e0, e1, e2⟩ := idx1 t
  match a with
  | ⟨0, _⟩ => show win0_1.index t 0 * 1 + 1 * 0 = t.val; rw [e0]; omega
  | ⟨1, _⟩ => show win0_1.index t 1 * 3 + 1 * k.val = k.val; rw [e1]; omega
  | ⟨2, _⟩ => show win0_1.index t 2 * 2048 + 1 * i.val = i.val; rw [e2]; omega

/-- The real values of the two arguments. -/
abbrev Pr (c : Dev nD) : Fin 8 → Fin 2048 → Fin 3 → ℝ := Chamfer.realOf (arg0 m c)
abbrev Gr (c : Dev nD) : Fin 8 → Fin 2048 → Fin 3 → ℝ := Chamfer.realOf (arg1 m c)

/-- What grid point `n` adds: batch element `n`'s two directions. -/
def sOf (c : Dev nD) (n : ℕ) : ℝ := if h : n < 8 then Chamfer.batch (Pr m c ⟨n, h⟩) (Gr m c ⟨n, h⟩) else 0

/-- The running total after grid point `n`, in the order the grid adds it, from zero. -/
def psum (c : Dev nD) : ℕ → ℝ
  | 0 => 0 + sOf m c 0
  | n + 1 => psum c n + sOf m c (n + 1)

/-- After the last grid point the running total is the sum over the eight batch elements. -/
theorem psum_last (c : Dev nD) : psum m c 7 = ∑ b : Fin 8, Chamfer.batch (Pr m c b) (Gr m c b) := by
  rw [← Chamfer.acc_eq]
  rfl

variable (hf0 : ∀ c i, ∃ r : ℝ, arg0 m c i = (r : EReal)) (hf1 : ∀ c i, ∃ r : ℝ, arg1 m c i = (r : EReal))

include hf0 hf1 in
/-- What grid point `t` stores over a previous entry: that entry plus batch element `t`. -/
theorem point_total (c : Dev nD) (t : Fin cfg0.N) (prev : Vec Ideal S1x1 .f32) (y : S1x1.Idx) :
    Body.total (iblk m c 0 t : Vec Ideal S1x3x2048 .f32) (iblk m c 1 t : Vec Ideal S1x3x2048 .f32) prev y
      = prev y + ((sOf m c t.val : ℝ) : EReal) := by
  have hs : sOf m c t.val = Chamfer.batch (Pr m c (bOf t)) (Gr m c (bOf t)) := dif_pos (lt_of_lt_of_eq t.isLt N_0)
  rw [hs]
  exact BodyValue.total_value (iblk m c 0 t) (iblk m c 1 t) prev (Pr m c (bOf t)) (Gr m c (bOf t))
    (fun k i => (iblk0_apply m c t k i).trans (Chamfer.coe_realOf (arg0 m c) (hf0 c) (bOf t) i k))
    (fun k i => (iblk1_apply m c t k i).trans (Chamfer.coe_realOf (arg1 m c) (hf1 c) (bOf t) i k)) y

include hf0 hf1 in
/-- After grid point `n` the output block's entry is the running total. -/
theorem outsAt_eq (c : Dev nD) : ∀ (n : ℕ) (hn : n < cfg0.N) (y : S1x1.Idx),
    (outsAt0 m c n hn : Vec Ideal S1x1 .f32) y = ((psum m c n : ℝ) : EReal)
  | 0, hn, y => by
    rw [outsAt0_A m c ⟨0, hn⟩ rfl, Pieces.out_A, point_total m hf0 hf1 c ⟨0, hn⟩ _ y, BodyValue.pay1_value]
    show (0 : EReal) + _ = _
    rw [← EReal.coe_zero, ← EReal.coe_add]
    rfl
  | n + 1, hn, y => by
    have hB : ¬(⟨n + 1, hn⟩ : Fin cfg0.N).val % 8 = 0 := by
      have := lt_of_lt_of_eq hn N_0
      dsimp only
      omega
    rw [outsAt0_B m c ⟨n + 1, hn⟩ hB, Pieces.out_B, point_total m hf0 hf1 c ⟨n + 1, hn⟩ _ y]
    show (outsAt0 m c n _ : Vec Ideal S1x1 .f32) y + _ = _
    rw [outsAt_eq c n _ y, ← EReal.coe_add]
    rfl

/-- The output array after the region: its one entry is the running total after the last grid point. -/
abbrev result2 (c : Dev nD) : Buf (Elt Ideal) ((c : Thread nD τ).loc main_v2) := fun _ => ((psum m c 7 : ℝ) : EReal)

include hf0 hf1 in
theorem outs_last (c : Dev nD) : (outsAt0 m c t0_7.val t0_7.isLt : Vec Ideal S1x1 .f32) = result2 m c :=
  funext fun y => outsAt_eq m hf0 hf1 c 7 t0_7.isLt y

include hf0 hf1 in
/-- The one write-back, after the last grid point, writes that entry: the block is the whole array. -/
theorem flushed_eq (c : Dev nD) (t : Fin cfg0.N) (hf : (cfg0.win 2).flush t = true) :
    (dats m 0 c).flushed 2 t = ((cfg0.win 2).blk t).view.read (Elt Ideal) (result2 m c) := by
  have h7 : t.val = 7 := by
    have := (flush0_2 t).mp hf
    have := lt_of_lt_of_eq t.isLt N_0
    omega
  obtain rfl : t = t0_7 := Fin.ext h7
  show (cfg0.win 2).cut (grid0.coords t0_7) ((dats m 0 c).after 2 t0_7) = _
  rw [after0_2, outs_last m hf0 hf1 c]
  have hz' : (fun a => win0_2.index t0_7 a * main_v2.ty.shape.size a) = fun _ => 0 := funext fun a => by fin_cases a <;> decide
  exact (Memref.read_access_unit_zero (Elt Ideal) main_v2 hz' (fun a => by rw [congrFun hz' a]; simp) (result2 m c)).symm

include hf0 hf1 in
/-- So the output array ends holding the running total after the last grid point. -/
theorem final2 (c : Dev nD) : (dats m 0 c).arrAt 2 cfg0.N = result2 m c :=
  (dats m 0 c).arrAt_eq_of_cover 2 (result2 m c) (flushed_eq m hf0 hf1 c) fun i =>
    ⟨t0_7, (flush0_2 t0_7).mpr rfl, by
      show i ∈ ((View.whole main_v2).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1 from by decide +kernel]; omega⟩

include hf0 hf1 in
/-- The host's last lines: the entry, read as a scalar, divided by `32768`, is the loss. -/
theorem tail_value (c : Dev nD) :
    Pipeline.afterTail₀ cfgs (dats m) 0 (V0 m) [hostOps1] c main_v4 = fun _ => Chamfer.spec (arg0 m c) (arg1 m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = result2 m c :=
    (Pipeline.withArrays_arr spec0 winFacts0.arr_inj c _ _ 2).trans (final2 m hf0 hf1 c)
  rw [hw]
  funext y
  show Ideal.div ((psum m c 7 : ℝ) : EReal) (Ideal.ofBits .f32 0x47000000#32) = _
  rw [Cert.Consts.ofBits_32768, Cert.Consts.div_coe_coe _ _ (by norm_num), psum_last]
  rfl

include hf0 hf1 in
/-- The run, read: the result is the loss of the two arguments, which end unchanged. -/
theorem run : θ_run defs (onTc (τ := τ) (main (F := Ideal))) ⟨m, fun _ => 0, ρ⟩ fun r => ∀ c : Dev nD,
      r.2.mem ((c.tc : Thread nD τ).loc main_v4) = (fun _ => Chamfer.spec (arg0 m c) (arg1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_value m hf0 hf1 c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  The Chamfer loss between two clouds of 2048 points of ℝ³, eight batch elements: the kernel against jnp.

  The kernel forms, per batch element, the 2048 × 2048 matrix of squared distances `|a_i - b_j|²` as ONE contraction
  over sixteen augmented rows: the cross term `-2 a·b` through hi/lo splits of both operands (four partial
  products per coordinate), and `|a|²`, `|b|²` riding along against rows of ones. At the ideal instance a change
  of float format is the identity, so each "hi" part is the value itself and each "lo" part the value minus
  itself — zero for a finite value — and the sixteen products sum to `-2 a·b + |b|² + |a|² = |a - b|²`: the
  reference's `∑ₖ (a_k - b_k)²`. This is where finiteness of the inputs is used (`∞ - ∞` is not zero).
  The row minima and the column minima of that one matrix are the two directions of the loss (the second
  direction's matrix is the transpose, and `(b - a)² = (a - b)²`); taking them strip by strip (eight strips of 256
  rows) and combining is the minimum, and the sum, over all 2048 rows. The grid accumulates the eight batch
  elements into a one-element block from zero, and the host divides by `32768 = 2 · 8 · 2048`, which over the
  reals is the reference's mean over points, mean over the batch, and halving of the two directions.

  Both programs therefore end at the real number `Chamfer.loss` of the inputs' real values (Proof/ChamferMath.lean):
  the reference by its run read stage by stage (Proof/RefValue.lean), the kernel by the running total the
  one-element output block holds after each grid point (Proof/KernelRun.lean, over the per-point value of
  Proof/BodyValue.lean). The three frames are the generated frame proofs and the reference's run; the four
  `preserves` conjuncts are the format round trips the ideal reading removes.
-/
import proofs.«144426_g47682726920370_cont_8to1_c_550_9_alg».proof.Defs
import proofs.«144426_g47682726920370_cont_8to1_c_550_9_alg».proof.Proof.Gen.Kernel
import proofs.«144426_g47682726920370_cont_8to1_c_550_9_alg».proof.Proof.Gen.Kernel.Frame
import proofs.«144426_g47682726920370_cont_8to1_c_550_9_alg».proof.Proof.Gen.KernelIdeal
import proofs.«144426_g47682726920370_cont_8to1_c_550_9_alg».proof.Proof.Gen.KernelIdeal.Frame
import proofs.«144426_g47682726920370_cont_8to1_c_550_9_alg».proof.Proof.Gen.ReferenceIdeal
import proofs.«144426_g47682726920370_cont_8to1_c_550_9_alg».proof.Proof.Gen.ReferenceIdeal.Run
import proofs.«144426_g47682726920370_cont_8to1_c_550_9_alg».proof.Proof.Gen.ReferenceIdeal.Read
import proofs.«144426_g47682726920370_cont_8to1_c_550_9_alg».proof.Proof.Gen.Pre_finite_inputs
import proofs.«144426_g47682726920370_cont_8to1_c_550_9_alg».proof.Proof.Finite
import proofs.«144426_g47682726920370_cont_8to1_c_550_9_alg».proof.Proof.RefValue
import proofs.«144426_g47682726920370_cont_8to1_c_550_9_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The four format round trips (of `-2a`, of `b`, of `|a|²`, of `|b|²`) are the identity at the ideal instance and
    the rounding through sixteen bits at the word level. -/
theorem preserves : Cert.preserves_Kernel_KernelIdeal :=
  ⟨IdealRules.truncf_extf.statement Cert.KernelIdeal.S3x2048 .f32 .bf16,
    IdealRules.truncf_extf.statement Cert.KernelIdeal.S3x2048 .f32 .bf16,
    IdealRules.truncf_extf.statement Cert.KernelIdeal.S1x2048 .f32 .bf16,
    IdealRules.truncf_extf.statement Cert.KernelIdeal.S1x2048 .f32 .bf16⟩

/-- Over finite inputs that agree, both idealized programs end at the loss of the inputs' real values. -/
theorem algebraic : Cert.algebraic_KernelIdeal_ReferenceIdeal := by
  intro m ρ m' ρ' hpre hagree
  have hfin := fun c => Cert.Finite.finite_of_pre _ _ (hpre c)
  refine ⟨fun c _ => Chamfer.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v27_eq]
  exact Cert.ReferenceIdeal.RefValue.result_eq _ _ (hfin c).1 (hfin c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
